-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel

variable [Facts]

def fn {F : FTy → Type} [FloatOps F] (main_arg0 : FVec F S8x16x512x512 .f32) (main_arg1 : FVec F S8x16x512x512 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x16x512x512 .f32 := Host.absf main_arg1
  let main_cst_0 : FVec F S_ .f32 := constant S_ .f32 0x7F800000#32
  let main_v5 : FVec F S8x16x512x512 .f32 := broadcastInDim S8x16x512x512 ![] bcast_S_S8x16x512x512 main_cst_0
  let main_v6 : IVec S8x16x512x512 1 := cmpf .olt main_v4 main_v5
  let main_c_1 : IVec S_ 1 := constantI S_ 1 1#1
  let main_v7 : IVec S_ 1 := (fun x v => Host.reduce IntOp.andi x v reducesTo_S8x16x512x512_S_d0_1_2_3 h_S_) main_v6 main_c_1
  let main_v8 : IVec S_ 1 := andi main_v3 main_v7
  main_v8
-- ==== Kernel.lean ====
abbrev S8x16x512x512 : Shape := ⟨4, ![8, 16, 512, 512]⟩
abbrev S8x16x1 : Shape := ⟨3, ![8, 16, 1]⟩
abbrev S8x16 : Shape := ⟨2, ![8, 16]⟩
abbrev S_ : Shape := ⟨0, ![]⟩
abbrev S8 : Shape := ⟨1, ![8]⟩
abbrev S8x15 : Shape := ⟨2, ![8, 15]⟩
abbrev S1x16x256x512 : Shape := ⟨4, ![1, 16, 256, 512]⟩
abbrev S1x16x1 : Shape := ⟨3, ![1, 16, 1]⟩
abbrev S16x1 : Shape := ⟨2, ![16, 1]⟩
abbrev S16x256x512 : Shape := ⟨3, ![16, 256, 512]⟩
abbrev S16x256 : Shape := ⟨2, ![16, 256]⟩
abbrev S16 : Shape := ⟨1, ![16]⟩

abbrev nBuf : Space → Nat
  | .hbm => 58
  | .vmem => 19
  | .smem => 0
  | _ => 0

abbrev bufTy : (tb : Table) → Fin (tcTables nBuf tb) → BufTy
  | .hbm, ⟨0, _⟩ => ⟨S8x16x512x512, .f32⟩
  | .hbm, ⟨1, _⟩ => ⟨S8x16x512x512, .f32⟩
  | .hbm, ⟨2, _⟩ => ⟨S8x16x1, .f32⟩
  | .hbm, ⟨3, _⟩ => ⟨S8x16x1, .f32⟩
  | .hbm, ⟨4, _⟩ => ⟨S8x16x1, .f32⟩
  | .hbm, ⟨5, _⟩ => ⟨S8x16x1, .f32⟩
  | .hbm, ⟨6, _⟩ => ⟨S8x16x1, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S8x16, .f32⟩
  | .hbm, ⟨11, _⟩ => ⟨S8x16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x15, .f32⟩
  | .hbm, ⟨43, _⟩ => ⟨S8x15, .f32⟩
  | .hbm, ⟨44, _⟩ => ⟨S8x15, .f32⟩
  | .hbm, ⟨45, _⟩ => ⟨S8x15, .f32⟩
  | .hbm, ⟨46, _⟩ => ⟨S_, .f32⟩
  | .hbm, ⟨47, _⟩ => ⟨S8x15, .f32⟩
  | .hbm, ⟨48, _⟩ => ⟨S8x15, .f32⟩
  | .hbm, ⟨49, _⟩ => ⟨S_, .f32⟩
  | .hbm, ⟨50, _⟩ => ⟨S8x15, .f32⟩
  | .hbm, ⟨51, _⟩ => ⟨S8x15, .f32⟩
  | .hbm, ⟨52, _⟩ => ⟨S8x15, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x16x256x512, .f32⟩
  | .local _ .vmem, ⟨1, _⟩ => ⟨S1x16x256x512, .f32⟩
  | .local _ .vmem, ⟨2, _⟩ => ⟨S1x16x256x512, .f32⟩
  | .local _ .vmem, ⟨3, _⟩ => ⟨S1x16x256x512, .f32⟩
  | .local _ .vmem, ⟨4, _⟩ => ⟨S1x16x1, .f32⟩
  | .local _ .vmem, ⟨5, _⟩ => ⟨S1x16x1, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S1x16x1, .f32⟩
  | .local _ .vmem, ⟨11, _⟩ => ⟨S1x16x1, .f32⟩
  | .local _ .vmem, ⟨12, _⟩ => ⟨S1x16x1, .f32⟩
  | .local _ .vmem, ⟨13, _⟩ => ⟨S1x16x1, .f32⟩
  | .local _ .vmem, ⟨14, _⟩ => ⟨S16x1, .f32⟩
  | .local _ .vmem, ⟨15, _⟩ => ⟨S16x1, .f32⟩
  | .local _ .vmem, ⟨16, _⟩ => ⟨S16x1, .f32⟩
  | .local _ .vmem, ⟨17, _⟩ => ⟨S16x1, .f32⟩
  | .local _ .vmem, ⟨18, _⟩ => ⟨S16x1, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v0_4 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_call0_cst_0 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_cst_2 : Ref sig .tc := ⟨.hbm, 18, rfl⟩
abbrev main_call0_v9 : Ref sig .tc := ⟨.hbm, 19, rfl⟩
abbrev main_call0_cst_3 : Ref sig .tc := ⟨.hbm, 20, rfl⟩
abbrev main_call0_v10 : Ref sig .tc := ⟨.hbm, 21, rfl⟩
abbrev main_call0_cst_4 : Ref sig .tc := ⟨.hbm, 22, rfl⟩
abbrev main_call0_v11 : Ref sig .tc := ⟨.hbm, 23, rfl⟩
abbrev main_call0_v12 : Ref sig .tc := ⟨.hbm, 24, rfl⟩
abbrev main_call0_cst_5 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_cst_6 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_cst_7 : Ref sig .tc := ⟨.hbm, 33, rfl⟩
abbrev main_call0_v19 : Ref sig .tc := ⟨.hbm, 34, rfl⟩
abbrev main_call0_cst_8 : Ref sig .tc := ⟨.hbm, 35, rfl⟩
abbrev main_call0_v20 : Ref sig .tc := ⟨.hbm, 36, rfl⟩
abbrev main_call0_cst_9 : Ref sig .tc := ⟨.hbm, 37, rfl⟩
abbrev main_call0_v21 : Ref sig .tc := ⟨.hbm, 38, rfl⟩
abbrev main_call0_cst_10 : Ref sig .tc := ⟨.hbm, 39, rfl⟩
abbrev main_call0_v22 : Ref sig .tc := ⟨.hbm, 40, rfl⟩
abbrev main_call0_v23 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v24 : Ref sig .tc := ⟨.hbm, 44, rfl⟩
abbrev main_call0_v25 : Ref sig .tc := ⟨.hbm, 45, rfl⟩
abbrev main_call0_cst_11 : Ref sig .tc := ⟨.hbm, 46, rfl⟩
abbrev main_call0_v26 : Ref sig .tc := ⟨.hbm, 47, rfl⟩
abbrev main_call0_v27 : Ref sig .tc := ⟨.hbm, 48, rfl⟩
abbrev main_call0_call1_cst : Ref sig .tc := ⟨.hbm, 49, rfl⟩
abbrev main_call0_call1_v0 : Ref sig .tc := ⟨.hbm, 50, rfl⟩
abbrev main_call0_v28 : Ref sig .tc := ⟨.hbm, 51, rfl⟩
abbrev main_call0_v29 : Ref sig .tc := ⟨.hbm, 52, rfl⟩
abbrev main_call0_cst_12 : Ref sig .tc := ⟨.hbm, 53, rfl⟩
abbrev main_call0_v30 : Ref sig .tc := ⟨.hbm, 54, rfl⟩
abbrev main_call0_cst_13 : Ref sig .tc := ⟨.hbm, 55, rfl⟩
abbrev main_call0_v31 : Ref sig .tc := ⟨.hbm, 56, rfl⟩
abbrev main_v0 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v66 : BitVec 1 := Scalar.cmpi .eq arg1 c1_i32
  let v67 : BitVec 32 := Scalar.extui v66
  let c0_i32_42 : BitVec 32 := 0#32
  let v68 : BitVec 1 := Scalar.cmpi .ne v67 c0_i32_42
  v68

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x16x1_S8x16 : S8x16x1.ShapeCasts S8x16
  reducesTo_S8x16_S_d0_1 : S8x16.ReducesTo [0, 1] S_
  h_S_ : 0 < S_.numel
  reducesTo_S8x16_S8_d1 : S8x16.ReducesTo [1] S8
  bcast_S_S8 : S_.BroadcastsInDim S8 (![] : Fin 0 → Fin S8.rank)
  reducesTo_S8_S_d0 : S8.ReducesTo [0] S_
  slices_S8x16_S8x15_0_1 : S8x16.Slices ![0, 1] S8x15
  slices_S8x16_S8x15_0_0 : S8x16.Slices ![0, 0] S8x15
  bcast_S_S8x15 : S_.BroadcastsInDim S8x15 (![] : Fin 0 → Fin S8x15.rank)
  reducesTo_S8x15_S_d0_1 : S8x15.ReducesTo [0, 1] S_
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x16x256x512_S1x16x256x512_0_0_0_0 : ∀ a, (![0, 0, 0, 0] : Fin 4 → Nat) a + S1x16x256x512.size a ≤ S1x16x256x512.size a
  h_S1x16x256x512 : 0 < S1x16x256x512.numel
  shapeCasts_S1x16x256x512_S16x256x512 : S1x16x256x512.ShapeCasts S16x256x512
  reduces_S16x256x512_S16x256 : S16x256x512.Reduces [2] S16x256
  reduces_S16x256_S16 : S16x256.Reduces [1] S16
  shapeCasts_S16_S16x1 : S16.ShapeCasts S16x1
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x512.size a ≤ S8x16x512x512.size a
  hwx0_0 : ∀ i : grid0.Coords, EltTy.bits .f32 = 32 ∨ (Rect.block (s := S8x16x512x512) S1x16x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x512.size a ≤ S8x16x512x512.size a
  hwx0_1 : ∀ i : grid0.Coords, EltTy.bits .f32 = 32 ∨ (Rect.block (s := S8x16x512x512) S1x16x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S8x16x1.size a
  hwx0_2 : ∀ i : grid0.Coords, EltTy.bits .f32 = 32 ∨ (Rect.block (s := S8x16x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S8x16x1.size a
  hwx0_3 : ∀ i : grid0.Coords, EltTy.bits .f32 = 32 ∨ (Rect.block (s := S8x16x1) S1x16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S8x16x1.size a
  hwx0_4 : ∀ i : grid0.Coords, EltTy.bits .f32 = 32 ∨ (Rect.block (s := S8x16x1) S1x16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1.size a ≤ S8x16x1.size a
  hwx0_5 : ∀ i : grid0.Coords, EltTy.bits .f32 = 32 ∨ (Rect.block (s := S8x16x1) S1x16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1.size a ≤ S8x16x1.size a
  hwx0_6 : ∀ i : grid0.Coords, EltTy.bits .f32 = 32 ∨ (Rect.block (s := S8x16x1) S1x16x1.size (cc0_transform_6 i) (hinb0_6 i)).WholeWords (EltTy.packing .f32)

variable [Facts₀]

abbrev win0_0 : Pipeline.Window sig grid0 :=
  Pipeline.Window.ofSpec (Memref.whole main_arg0) S1x16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x16x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_2) S1x16x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_3) S1x16x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0_4) S1x16x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x16x512x512 : Shape := ⟨4, ![8, 16, 512, 512]⟩
abbrev S_ : Shape := ⟨0, ![]⟩
abbrev S8x4194304 : Shape := ⟨2, ![8, 4194304]⟩
abbrev S8 : Shape := ⟨1, ![8]⟩
abbrev S8x16 : Shape := ⟨2, ![8, 16]⟩
abbrev S8x15 : Shape := ⟨2, ![8, 15]⟩

abbrev nBuf : Space → Nat
  | .hbm => 71
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S8x16x512x512, .f32⟩
  | .hbm, ⟨2, _⟩ => ⟨S_, .f32⟩
  | .hbm, ⟨3, _⟩ => ⟨S8x16x512x512, .f32⟩
  | .hbm, ⟨4, _⟩ => ⟨S8x16x512x512, .f32⟩
  | .hbm, ⟨5, _⟩ => ⟨S8x16x512x512, .f32⟩
  | .hbm, ⟨6, _⟩ => ⟨S8x16x512x512, .f32⟩
  | .hbm, ⟨7, _⟩ => ⟨S8x16x512x512, .f32⟩
  | .hbm, ⟨8, _⟩ => ⟨S8x16x512x512, .f32⟩
  | .hbm, ⟨9, _⟩ => ⟨S8x16x512x512, .f32⟩
  | .hbm, ⟨10, _⟩ => ⟨S8x16x512x512, .f32⟩
  | .hbm, ⟨11, _⟩ => ⟨S8x16x512x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x16x512x512, .f32⟩
  | .hbm, ⟨17, _⟩ => ⟨S8x16x512x512, .f32⟩
  | .hbm, ⟨18, _⟩ => ⟨S_, .f32⟩
  | .hbm, ⟨19, _⟩ => ⟨S8x16x512x512, .f32⟩
  | .hbm, ⟨20, _⟩ => ⟨S8x16x512x512, .f32⟩
  | .hbm, ⟨21, _⟩ => ⟨S_, .f32⟩
  | .hbm, ⟨22, _⟩ => ⟨S8x16x512x512, .f32⟩
  | .hbm, ⟨23, _⟩ => ⟨S8x16x512x512, .f32⟩
  | .hbm, ⟨24, _⟩ => ⟨S8x4194304, .f32⟩
  | .hbm, ⟨25, _⟩ => ⟨S8x4194304, .f32⟩
  | .hbm, ⟨26, _⟩ => ⟨S8x4194304, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x16, .f32⟩
  | .hbm, ⟨55, _⟩ => ⟨S8x15, .f32⟩
  | .hbm, ⟨56, _⟩ => ⟨S8x15, .f32⟩
  | .hbm, ⟨57, _⟩ => ⟨S8x15, .f32⟩
  | .hbm, ⟨58, _⟩ => ⟨S8x15, .f32⟩
  | .hbm, ⟨59, _⟩ => ⟨S_, .f32⟩
  | .hbm, ⟨60, _⟩ => ⟨S8x15, .f32⟩
  | .hbm, ⟨61, _⟩ => ⟨S8x15, .f32⟩
  | .hbm, ⟨62, _⟩ => ⟨S_, .f32⟩
  | .hbm, ⟨63, _⟩ => ⟨S8x15, .f32⟩
  | .hbm, ⟨64, _⟩ => ⟨S8x15, .f32⟩
  | .hbm, ⟨65, _⟩ => ⟨S8x15, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_cst_13 : Ref sig .tc := ⟨.hbm, 50, rfl⟩
abbrev main_v34 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_v37 : Ref sig .tc := ⟨.hbm, 57, rfl⟩
abbrev main_v38 : Ref sig .tc := ⟨.hbm, 58, rfl⟩
abbrev main_cst_15 : Ref sig .tc := ⟨.hbm, 59, rfl⟩
abbrev main_v39 : Ref sig .tc := ⟨.hbm, 60, rfl⟩
abbrev main_v40 : Ref sig .tc := ⟨.hbm, 61, rfl⟩
abbrev main_call1_cst : Ref sig .tc := ⟨.hbm, 62, rfl⟩
abbrev main_call1_v0 : Ref sig .tc := ⟨.hbm, 63, rfl⟩
abbrev main_v41 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩
abbrev main_cst_17 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]

class Facts₀ : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  shapeCasts_S8x16x512x512_S8x4194304 : S8x16x512x512.ShapeCasts S8x4194304
  reducesTo_S8x4194304_S8_d1 : S8x4194304.ReducesTo [1] S8
  bcast_S_S8 : S_.BroadcastsInDim S8 (![] : Fin 0 → Fin S8.rank)
  reducesTo_S8_S_d0 : S8.ReducesTo [0] S_
  reducesTo_S8x16x512x512_S8x16_d2_3 : S8x16x512x512.ReducesTo [2, 3] S8x16
  slices_S8x16_S8x15_0_1 : S8x16.Slices ![0, 1] S8x15
  slices_S8x16_S8x15_0_0 : S8x16.Slices ![0, 0] S8x15
  bcast_S_S8x15 : S_.BroadcastsInDim S8x15 (![] : Fin 0 → Fin S8x15.rank)
  reducesTo_S8x15_S_d0_1 : S8x15.ReducesTo [0, 1] S_

variable [Facts₀]

class Facts : Prop extends Facts₀ where

variable [Facts]
-- ==== Proof.Finite.lean ====
/-
  The precondition, read: an input admitted by `finite_inputs` holds a real number at every pixel.

  The predicate is the conjunction of two `jnp.all (|x| < +inf)`; a conjunction of one-bit words that is 1 has both
  words 1, an all-reduction by `and` that is 1 had a 1 at every index, and an extended real whose absolute value
  max x (-x) is strictly below the top element is neither infinity, hence a real.
-/
import proofs.«401697_j40973988004466_4_alg».proof.Pre_finite_inputs
import Idealize.ShloMosaic.Lib.ReduceAll
import Idealize.ShloMosaic.Lib.ValueIdx
import Idealize.ShloMosaic.PureOps.Ideal.Laws

noncomputable section

open Idealize.ShloMosaic

namespace Cert.Pre_finite_inputs

variable [Facts]

instance subsingleton_scalar_idx : Subsingleton S_.Idx := ⟨fun a b => funext fun d => d.elim0⟩

/-- The binary32 word 0x7F800000 denotes the top element. -/
theorem ofBits_inf : Ideal.ofBits .f32 0x7F800000#32 = (⊤ : EReal) := by
  simp [Ideal.ofBits, Ideal.ieee]

/-- An extended real with |x| < +inf is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  induction x using EReal.rec with
  | bot => exact absurd h (by simp [Ideal.cmpf_def, Ideal.absf_def, Ideal.cmp])
  | top => exact absurd h (by simp [Ideal.cmpf_def, Ideal.absf_def, Ideal.cmp])
  | coe r => exact ⟨r, rfl⟩

/-- Every pixel of either admitted input is a real. -/
theorem finite_of_pre (X Y : FVec Ideal S8x16x512x512 .f32) (h : fn (F := Ideal) X Y = fun _ => 1#1) :
    (∀ k, ∃ r : ℝ, X k = (r : EReal)) ∧ (∀ k, ∃ r : ℝ, Y k = (r : EReal)) := by
  have h0 := congrFun h ValueIdx.ix0
  dsimp only [fn] at h0
  obtain ⟨hx, hy⟩ := IntOp.andi_eq_one.1 h0
  exact ⟨fun k => real_of_abs_lt (X k) (Host.reduce_andi_all _ _ _ _ _ hx k),
    fun k => real_of_abs_lt (Y k) (Host.reduce_andi_all _ _ _ _ _ hy k)⟩

end Cert.Pre_finite_inputs

end
-- ==== Proof.KDefs.lean ====
/-
  The kernel's five statistics, as values.

  The grid is (batch, half): point 2b is the upper half of batch b's frames, point 2b + 1 the lower half.  Each of the
  five accumulators (one column of 16 frames) is zeroed at the upper half and receives, at each half, the half frame's
  partial sums added to what it held; at the lower half its contents are copied, with a leading unit axis, into the
  output block of batch b.  So output j's block of batch b is
      lead (upd j (lower half) (upd j (upper half) zero)),
  and the output array is that block at every batch.  Everything here is stated over the body's payloads at any float
  instance; what the payloads compute is read at the extended reals elsewhere.
-/
import proofs.«401697_j40973988004466_4_alg».proof.Proof.KernelIdealFrame
import Idealize.ShloMosaic.Lib.ValueIdx

noncomputable section

open Idealize.ShloMosaic Idealize.ShloMosaic.TcCoe Idealize.SL.Sem

namespace Cert.KernelIdeal.Stats

open Cert.KernelIdeal Cert.KernelIdeal.Gen Cert.KernelIdeal.GenP

variable {F : FTy → Type} [FloatOps F]

/-! ## One half frame into an accumulator -/

/-- Accumulator 0 (cross entropy) after the half frame (x, y), from its contents a. -/
def upd0 (x y : Vec F S1x16x256x512 .f32) (a : Vec F S16x1 .f32) : Vec F S16x1 .f32 := k0_pay19 (k0_pay16 x y) a
/-- Accumulator 1 (sigmoid). -/
def upd1 (x y : Vec F S1x16x256x512 .f32) (a : Vec F S16x1 .f32) : Vec F S16x1 .f32 := k0_pay20 (k0_pay17 x) a
/-- Accumulator 2 (target). -/
def upd2 (x y : Vec F S1x16x256x512 .f32) (a : Vec F S16x1 .f32) : Vec F S16x1 .f32 := k0_pay21 (k0_pay18 y) a
/-- Accumulator 3 (sigmoid times target). -/
def upd3 (x y : Vec F S1x16x256x512 .f32) (a : Vec F S16x1 .f32) : Vec F S16x1 .f32 := k0_pay22 (k0_pay15 x y) a
/-- Accumulator 4 (logit). -/
def upd4 (x y : Vec F S1x16x256x512 .f32) (a : Vec F S16x1 .f32) : Vec F S16x1 .f32 := k0_pay23 (k0_pay11 x) a

/-! ## A batch's output block from its two half frames -/

def blk0 (x y x' y' : Vec F S1x16x256x512 .f32) : Vec F S1x16x1 .f32 := k0_pay1 (upd0 x' y' (upd0 x y k0_pay6))
def blk1 (x y x' y' : Vec F S1x16x256x512 .f32) : Vec F S1x16x1 .f32 := k0_pay2 (upd1 x' y' (upd1 x y k0_pay7))
def blk2 (x y x' y' : Vec F S1x16x256x512 .f32) : Vec F S1x16x1 .f32 := k0_pay3 (upd2 x' y' (upd2 x y k0_pay8))
def blk3 (x y x' y' : Vec F S1x16x256x512 .f32) : Vec F S1x16x1 .f32 := k0_pay4 (upd3 x' y' (upd3 x y k0_pay9))
def blk4 (x y x' y' : Vec F S1x16x256x512 .f32) : Vec F S1x16x1 .f32 := k0_pay5 (upd4 x' y' (upd4 x y k0_pay10))

/-! ## The output arrays -/

variable (m : (ℓ : Loc nD τ sig) → Buf (Elt F) ℓ)

/-- The grid point of half hh of batch b. -/
def pt (b : Fin 8) (hh : Fin 2) : Fin cfg0.N :=
  ⟨2 * b.val + hh.val, by rw [show cfg0.N = 16 from N_0]; have := b.isLt; have := hh.isLt; omega⟩

/-- The logits' and the targets' block at half hh of batch b. -/
abbrev xhalf (c : Dev nD) (b : Fin 8) (hh : Fin 2) : Vec F S1x16x256x512 .f32 := iblk m c 0 (pt b hh)
abbrev yhalf (c : Dev nD) (b : Fin 8) (hh : Fin 2) : Vec F S1x16x256x512 .f32 := iblk m c 1 (pt b hh)

/-- Output array j: at (b, t, u) the block of batch b at (0, t, u). -/
def arr0 (c : Dev nD) : Buf (Elt F) ((c : Thread nD τ).loc main_call0_v0_0) := fun i =>
  blk0 (xhalf m c (i 0) 0) (yhalf m c (i 0) 0) (xhalf m c (i 0) 1) (yhalf m c (i 0) 1) (ValueIdx.ix3 (0 : Fin 1) (i 1) (i 2))
def arr1 (c : Dev nD) : Buf (Elt F) ((c : Thread nD τ).loc main_call0_v0_1) := fun i =>
  blk1 (xhalf m c (i 0) 0) (yhalf m c (i 0) 0) (xhalf m c (i 0) 1) (yhalf m c (i 0) 1) (ValueIdx.ix3 (0 : Fin 1) (i 1) (i 2))
def arr2 (c : Dev nD) : Buf (Elt F) ((c : Thread nD τ).loc main_call0_v0_2) := fun i =>
  blk2 (xhalf m c (i 0) 0) (yhalf m c (i 0) 0) (xhalf m c (i 0) 1) (yhalf m c (i 0) 1) (ValueIdx.ix3 (0 : Fin 1) (i 1) (i 2))
def arr3 (c : Dev nD) : Buf (Elt F) ((c : Thread nD τ).loc main_call0_v0_3) := fun i =>
  blk3 (xhalf m c (i 0) 0) (yhalf m c (i 0) 0) (xhalf m c (i 0) 1) (yhalf m c (i 0) 1) (ValueIdx.ix3 (0 : Fin 1) (i 1) (i 2))
def arr4 (c : Dev nD) : Buf (Elt F) ((c : Thread nD τ).loc main_call0_v0_4) := fun i =>
  blk4 (xhalf m c (i 0) 0) (yhalf m c (i 0) 0) (xhalf m c (i 0) 1) (yhalf m c (i 0) 1) (ValueIdx.ix3 (0 : Fin 1) (i 1) (i 2))

end Cert.KernelIdeal.Stats

end
-- ==== Proof.KPieces.lean ====
/-
  What one run of the body leaves, case by case.

  At an even grid point (case A) each accumulator is first stored the zero column and then stored its update of the half
  frame, the update reading back the zero just stored: it ends at upd j x y zero.  At an odd point (case B) it is stored
  its update of what the point before left: upd j x y a.  In case B each output's staging buffer is then stored the
  accumulator's new contents with a leading unit axis.  Every store covers its whole buffer through the zero offsets, so
  the last store into a buffer is what the buffer holds.
-/
import proofs.«401697_j40973988004466_4_alg».proof.Proof.KDefs
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Stats

open Cert.KernelIdeal Cert.KernelIdeal.Gen Cert.KernelIdeal.GenP

variable {F : FTy → Type} [FloatOps F]

/-- The zero offsets of a rank 2, 3 and 4 rectangle, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Case A: the accumulators after a reset and one half frame -/

/-- Accumulator 0 after an even point: the update of the half frame over the zero column. -/
theorem soutA_0 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : cond0_0 i) (hc1 : ¬cond0_1 i)
    (x0 : Vec F S1x16x256x512 .f32) (x1 : Vec F S1x16x256x512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 = upd0 x0 x1 k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S16x1) hz2, View.readCov_unit_zero (S := S16x1) _ hz2]
  unfold upd0
  simp only [View.readAt_eq_ld, harg2.read_unread, harg3.read_unread, harg9.read_unread,
    View.ld_unit_zero (S := S1x16x256x512) hz4, View.ld_unit_zero (S := S16x1) hz2]

/-- Accumulator 1 after an even point: the update of the half frame over the zero column. -/
theorem soutA_1 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : cond0_0 i) (hc1 : ¬cond0_1 i)
    (x0 : Vec F S1x16x256x512 .f32) (x1 : Vec F S1x16x256x512 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 = upd1 x0 x1 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S16x1) hz2, View.readCov_unit_zero (S := S16x1) _ hz2]
  unfold upd1
  simp only [View.readAt_eq_ld, harg2.read_unread, harg3.read_unread, harg10.read_unread,
    View.ld_unit_zero (S := S1x16x256x512) hz4, View.ld_unit_zero (S := S16x1) hz2]

/-- Accumulator 2 after an even point: the update of the half frame over the zero column. -/
theorem soutA_2 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : cond0_0 i) (hc1 : ¬cond0_1 i)
    (x0 : Vec F S1x16x256x512 .f32) (x1 : Vec F S1x16x256x512 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 = upd2 x0 x1 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S16x1) hz2, View.readCov_unit_zero (S := S16x1) _ hz2]
  unfold upd2
  simp only [View.readAt_eq_ld, harg2.read_unread, harg3.read_unread, harg11.read_unread,
    View.ld_unit_zero (S := S1x16x256x512) hz4, View.ld_unit_zero (S := S16x1) hz2]

/-- Accumulator 3 after an even point: the update of the half frame over the zero column. -/
theorem soutA_3 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : cond0_0 i) (hc1 : ¬cond0_1 i)
    (x0 : Vec F S1x16x256x512 .f32) (x1 : Vec F S1x16x256x512 .f32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 = upd3 x0 x1 k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S16x1) hz2, View.readCov_unit_zero (S := S16x1) _ hz2]
  unfold upd3
  simp only [View.readAt_eq_ld, harg2.read_unread, harg3.read_unread, harg12.read_unread,
    View.ld_unit_zero (S := S1x16x256x512) hz4, View.ld_unit_zero (S := S16x1) hz2]

/-- Accumulator 4 after an even point: the update of the half frame over the zero column. -/
theorem soutA_4 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : cond0_0 i) (hc1 : ¬cond0_1 i)
    (x0 : Vec F S1x16x256x512 .f32) (x1 : Vec F S1x16x256x512 .f32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 = upd4 x0 x1 k0_pay10 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S16x1) hz2, View.readCov_unit_zero (S := S16x1) _ hz2]
  unfold upd4
  simp only [View.readAt_eq_ld, harg2.read_unread, harg3.read_unread, harg13.read_unread,
    View.ld_unit_zero (S := S1x16x256x512) hz4, View.ld_unit_zero (S := S16x1) hz2]

/-! ## Case B: the accumulators after one more half frame -/

/-- Accumulator 0 after an odd point: the update of the half frame over what the point before left. -/
theorem soutB_0 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = upd0 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  unfold upd0
  simp only [View.readAt_eq_ld, harg2.read_unread, harg3.read_unread, harg9.read_unread,
    View.ld_unit_zero (S := S1x16x256x512) hz4, View.ld_unit_zero (S := S16x1) hz2]

/-- Accumulator 1 after an odd point: the update of the half frame over what the point before left. -/
theorem soutB_1 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = upd1 x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  unfold upd1
  simp only [View.readAt_eq_ld, harg2.read_unread, harg3.read_unread, harg10.read_unread,
    View.ld_unit_zero (S := S1x16x256x512) hz4, View.ld_unit_zero (S := S16x1) hz2]

/-- Accumulator 2 after an odd point: the update of the half frame over what the point before left. -/
theorem soutB_2 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = upd2 x0 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  unfold upd2
  simp only [View.readAt_eq_ld, harg2.read_unread, harg3.read_unread, harg11.read_unread,
    View.ld_unit_zero (S := S1x16x256x512) hz4, View.ld_unit_zero (S := S16x1) hz2]

/-- Accumulator 3 after an odd point: the update of the half frame over what the point before left. -/
theorem soutB_3 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    sout0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = upd3 x0 x1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  unfold upd3
  simp only [View.readAt_eq_ld, harg2.read_unread, harg3.read_unread, harg12.read_unread,
    View.ld_unit_zero (S := S1x16x256x512) hz4, View.ld_unit_zero (S := S16x1) hz2]

/-- Accumulator 4 after an odd point: the update of the half frame over what the point before left. -/
theorem soutB_4 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    sout0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = upd4 x0 x1 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  unfold upd4
  simp only [View.readAt_eq_ld, harg2.read_unread, harg3.read_unread, harg13.read_unread,
    View.ld_unit_zero (S := S1x16x256x512) hz4, View.ld_unit_zero (S := S16x1) hz2]

/-! ## Case B: the output blocks -/

/-- Output 2's block after an odd point: accumulator 0's new contents with a leading unit axis. -/
theorem outB_2 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    out0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay1 (upd0 x0 x1 xs0) := by
  unfold out0_B_2
  rw [View.read_writes_eq_canon _ _ _ (cover0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz3]
  unfold upd0
  simp only [View.readAt_eq_ld, harg2.read_unread, harg3.read_unread, harg9.read_unread,
    View.ld_unit_zero (S := S1x16x256x512) hz4, View.ld_unit_zero (S := S16x1) hz2,
    View.readCov_unit_zero (S := S16x1) _ hz2]

/-- Output 3's block after an odd point: accumulator 1's new contents with a leading unit axis. -/
theorem outB_3 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    out0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay2 (upd1 x0 x1 xs1) := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz3]
  unfold upd1
  simp only [View.readAt_eq_ld, harg2.read_unread, harg3.read_unread, harg10.read_unread,
    View.ld_unit_zero (S := S1x16x256x512) hz4, View.ld_unit_zero (S := S16x1) hz2,
    View.readCov_unit_zero (S := S16x1) _ hz2]

/-- Output 4's block after an odd point: accumulator 2's new contents with a leading unit axis. -/
theorem outB_4 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    out0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay3 (upd2 x0 x1 xs2) := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz3]
  unfold upd2
  simp only [View.readAt_eq_ld, harg2.read_unread, harg3.read_unread, harg11.read_unread,
    View.ld_unit_zero (S := S1x16x256x512) hz4, View.ld_unit_zero (S := S16x1) hz2,
    View.readCov_unit_zero (S := S16x1) _ hz2]

/-- Output 5's block after an odd point: accumulator 3's new contents with a leading unit axis. -/
theorem outB_5 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    out0_B_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay4 (upd3 x0 x1 xs3) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz3]
  unfold upd3
  simp only [View.readAt_eq_ld, harg2.read_unread, harg3.read_unread, harg12.read_unread,
    View.ld_unit_zero (S := S1x16x256x512) hz4, View.ld_unit_zero (S := S16x1) hz2,
    View.readCov_unit_zero (S := S16x1) _ hz2]

/-- Output 6's block after an odd point: accumulator 4's new contents with a leading unit axis. -/
theorem outB_6 (c : Dev nD) (i : grid0.Coords) (arg2 : Memref sig .tc .vmem S1x16x256x512 .f32) (harg2 : arg2.IsWhole) (arg3 : Memref sig .tc .vmem S1x16x256x512 .f32) (harg3 : arg3.IsWhole) (arg4 : Memref sig .tc .vmem S1x16x1 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x1 .f32) (harg12 : arg12.IsWhole) (arg13 : Memref sig .tc .vmem S16x1 .f32) (harg13 : arg13.IsWhole) (hc0 : ¬cond0_0 i) (hc1 : cond0_1 i)
    (x0 : Vec F S1x16x256x512 .f32) (x1 : Vec F S1x16x256x512 .f32) (xs0 : Vec F S16x1 .f32) (xs1 : Vec F S16x1 .f32) (xs2 : Vec F S16x1 .f32) (xs3 : Vec F S16x1 .f32) (xs4 : Vec F S16x1 .f32) :
    out0_B_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay5 (upd4 x0 x1 xs4) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz3]
  unfold upd4
  simp only [View.readAt_eq_ld, harg2.read_unread, harg3.read_unread, harg13.read_unread,
    View.ld_unit_zero (S := S1x16x256x512) hz4, View.ld_unit_zero (S := S16x1) hz2,
    View.readCov_unit_zero (S := S16x1) _ hz2]

end Cert.KernelIdeal.Stats

end
-- ==== Proof.KArrays.lean ====
/-
  The five output arrays after the run.

  Batch b's two grid points are 2b (upper half) and 2b + 1 (lower half).  After the upper half accumulator j holds
  upd j (upper half) zero; after the lower half output j's staging buffer holds the block
      lead (upd j (lower half) (upd j (upper half) zero)),
  and that point, and no other, writes it back, to block b of the array.  The blocks of the eight lower-half points
  tile the array (index (b, 0, 0), blocks of 1 x 16 x 1 in an array of 8 x 16 x 1), so the array ends holding, at
  (b, t, u), batch b's block at (0, t, u).
-/
import proofs.«401697_j40973988004466_4_alg».proof.Proof.KPieces
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Stats

open Cert.KernelIdeal Cert.KernelIdeal.Gen Cert.KernelIdeal.GenP

variable {F : FTy → Type} [FloatOps F]
variable (m : (ℓ : Loc nD τ sig) → Buf (Elt F) ℓ)

/-! ## The two points of a batch -/

theorem pt_even (b : Fin 8) : (pt b 0).val % 2 = 0 := by show (2 * b.val + 0) % 2 = 0; omega
theorem pt_odd (b : Fin 8) : (pt b 1).val % 2 = 1 := by show (2 * b.val + 1) % 2 = 1; omega
theorem pt_half (b : Fin 8) : (pt b 1).val / 2 = b.val := by show (2 * b.val + 1) / 2 = b.val; omega
theorem pt_pred (b : Fin 8) : (pt b 1).val - 1 = (pt b 0).val := by show 2 * b.val + 1 - 1 = 2 * b.val + 0; omega

/-- The contents after a point depend on the point's position only. -/
theorem outsAt0_congr (c : Dev nD) {n n' : ℕ} (e : n = n') (h : n < cfg0.N) (h' : n' < cfg0.N) :
    outsAt0 m c n h = outsAt0 m c n' h' := by subst e; rfl

/-! ## The accumulators after a batch's upper half -/

/-- Accumulator 0 after point 2b: the upper half frame's update of the zero column. -/
theorem accA_0 (c : Dev nD) (b : Fin 8) :
    (outsAt0 m c (pt b 0).val (pt b 0).isLt).2.2.2.2.2.1 = upd0 (xhalf m c b 0) (yhalf m c b 0) k0_pay6 := by
  have h0 : (pt b 0).val % 2 = 0 := pt_even b
  have h1 : ¬(pt b 0).val % 2 = 1 := by omega
  rw [outsAt0_A m c (pt b 0) h0 h1]
  dsimp only
  exact soutA_0 c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) scM0_0 (Memref.isWhole_whole _) scM0_1 (Memref.isWhole_whole _) scM0_2 (Memref.isWhole_whole _) scM0_3 (Memref.isWhole_whole _) scM0_4 (Memref.isWhole_whole _) ((hcond0_0 (pt b 0)).mpr h0) (fun h => h1 ((hcond0_1 (pt b 0)).mp h)) (iblk m c 0 (pt b 0)) (iblk m c 1 (pt b 0))

/-- Accumulator 1 after point 2b: the upper half frame's update of the zero column. -/
theorem accA_1 (c : Dev nD) (b : Fin 8) :
    (outsAt0 m c (pt b 0).val (pt b 0).isLt).2.2.2.2.2.2.1 = upd1 (xhalf m c b 0) (yhalf m c b 0) k0_pay7 := by
  have h0 : (pt b 0).val % 2 = 0 := pt_even b
  have h1 : ¬(pt b 0).val % 2 = 1 := by omega
  rw [outsAt0_A m c (pt b 0) h0 h1]
  dsimp only
  exact soutA_1 c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) scM0_0 (Memref.isWhole_whole _) scM0_1 (Memref.isWhole_whole _) scM0_2 (Memref.isWhole_whole _) scM0_3 (Memref.isWhole_whole _) scM0_4 (Memref.isWhole_whole _) ((hcond0_0 (pt b 0)).mpr h0) (fun h => h1 ((hcond0_1 (pt b 0)).mp h)) (iblk m c 0 (pt b 0)) (iblk m c 1 (pt b 0))

/-- Accumulator 2 after point 2b: the upper half frame's update of the zero column. -/
theorem accA_2 (c : Dev nD) (b : Fin 8) :
    (outsAt0 m c (pt b 0).val (pt b 0).isLt).2.2.2.2.2.2.2.1 = upd2 (xhalf m c b 0) (yhalf m c b 0) k0_pay8 := by
  have h0 : (pt b 0).val % 2 = 0 := pt_even b
  have h1 : ¬(pt b 0).val % 2 = 1 := by omega
  rw [outsAt0_A m c (pt b 0) h0 h1]
  dsimp only
  exact soutA_2 c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) scM0_0 (Memref.isWhole_whole _) scM0_1 (Memref.isWhole_whole _) scM0_2 (Memref.isWhole_whole _) scM0_3 (Memref.isWhole_whole _) scM0_4 (Memref.isWhole_whole _) ((hcond0_0 (pt b 0)).mpr h0) (fun h => h1 ((hcond0_1 (pt b 0)).mp h)) (iblk m c 0 (pt b 0)) (iblk m c 1 (pt b 0))

/-- Accumulator 3 after point 2b: the upper half frame's update of the zero column. -/
theorem accA_3 (c : Dev nD) (b : Fin 8) :
    (outsAt0 m c (pt b 0).val (pt b 0).isLt).2.2.2.2.2.2.2.2.1 = upd3 (xhalf m c b 0) (yhalf m c b 0) k0_pay9 := by
  have h0 : (pt b 0).val % 2 = 0 := pt_even b
  have h1 : ¬(pt b 0).val % 2 = 1 := by omega
  rw [outsAt0_A m c (pt b 0) h0 h1]
  dsimp only
  exact soutA_3 c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) scM0_0 (Memref.isWhole_whole _) scM0_1 (Memref.isWhole_whole _) scM0_2 (Memref.isWhole_whole _) scM0_3 (Memref.isWhole_whole _) scM0_4 (Memref.isWhole_whole _) ((hcond0_0 (pt b 0)).mpr h0) (fun h => h1 ((hcond0_1 (pt b 0)).mp h)) (iblk m c 0 (pt b 0)) (iblk m c 1 (pt b 0))

/-- Accumulator 4 after point 2b: the upper half frame's update of the zero column. -/
theorem accA_4 (c : Dev nD) (b : Fin 8) :
    (outsAt0 m c (pt b 0).val (pt b 0).isLt).2.2.2.2.2.2.2.2.2 = upd4 (xhalf m c b 0) (yhalf m c b 0) k0_pay10 := by
  have h0 : (pt b 0).val % 2 = 0 := pt_even b
  have h1 : ¬(pt b 0).val % 2 = 1 := by omega
  rw [outsAt0_A m c (pt b 0) h0 h1]
  dsimp only
  exact soutA_4 c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) scM0_0 (Memref.isWhole_whole _) scM0_1 (Memref.isWhole_whole _) scM0_2 (Memref.isWhole_whole _) scM0_3 (Memref.isWhole_whole _) scM0_4 (Memref.isWhole_whole _) ((hcond0_0 (pt b 0)).mpr h0) (fun h => h1 ((hcond0_1 (pt b 0)).mp h)) (iblk m c 0 (pt b 0)) (iblk m c 1 (pt b 0))

/-! ## The output blocks after a batch's lower half -/

/-- Output 2's staging buffer after point 2b + 1: batch b's block. -/
theorem blkB_2 (c : Dev nD) (b : Fin 8) :
    (outsAt0 m c (pt b 1).val (pt b 1).isLt).1 = blk0 (xhalf m c b 0) (yhalf m c b 0) (xhalf m c b 1) (yhalf m c b 1) := by
  have h1 : (pt b 1).val % 2 = 1 := pt_odd b
  have h0 : ¬(pt b 1).val % 2 = 0 := by omega
  have e : (outsAt0 m c ((pt b 1).val - 1) (Nat.lt_of_le_of_lt (Nat.sub_le _ _) (pt b 1).isLt)) = outsAt0 m c (pt b 0).val (pt b 0).isLt := outsAt0_congr m c (pt_pred b) _ _
  rw [outsAt0_B m c (pt b 1) h0 h1]
  dsimp only
  refine (outB_2 c (grid0.coords (pt b 1)) (ms0_0 (pt b 1)) (hs0_0 (pt b 1)) (ms0_1 (pt b 1)) (hs0_1 (pt b 1)) (ms0_2 (pt b 1)) (hs0_2 (pt b 1)) (ms0_3 (pt b 1)) (hs0_3 (pt b 1)) (ms0_4 (pt b 1)) (hs0_4 (pt b 1)) (ms0_5 (pt b 1)) (hs0_5 (pt b 1)) (ms0_6 (pt b 1)) (hs0_6 (pt b 1)) scM0_0 (Memref.isWhole_whole _) scM0_1 (Memref.isWhole_whole _) scM0_2 (Memref.isWhole_whole _) scM0_3 (Memref.isWhole_whole _) scM0_4 (Memref.isWhole_whole _) (fun h => h0 ((hcond0_0 (pt b 1)).mp h)) ((hcond0_1 (pt b 1)).mpr h1) (iblk m c 0 (pt b 1)) (iblk m c 1 (pt b 1))
    (outsAt0 m c ((pt b 1).val - 1) (Nat.lt_of_le_of_lt (Nat.sub_le _ _) (pt b 1).isLt)).2.2.2.2.2.1 (outsAt0 m c ((pt b 1).val - 1) (Nat.lt_of_le_of_lt (Nat.sub_le _ _) (pt b 1).isLt)).2.2.2.2.2.2.1 (outsAt0 m c ((pt b 1).val - 1) (Nat.lt_of_le_of_lt (Nat.sub_le _ _) (pt b 1).isLt)).2.2.2.2.2.2.2.1 (outsAt0 m c ((pt b 1).val - 1) (Nat.lt_of_le_of_lt (Nat.sub_le _ _) (pt b 1).isLt)).2.2.2.2.2.2.2.2.1 (outsAt0 m c ((pt b 1).val - 1) (Nat.lt_of_le_of_lt (Nat.sub_le _ _) (pt b 1).isLt)).2.2.2.2.2.2.2.2.2).trans ?_
  rw [e, accA_0]
  rfl

/-- Output 3's staging buffer after point 2b + 1: batch b's block. -/
theorem blkB_3 (c : Dev nD) (b : Fin 8) :
    (outsAt0 m c (pt b 1).val (pt b 1).isLt).2.1 = blk1 (xhalf m c b 0) (yhalf m c b 0) (xhalf m c b 1) (yhalf m c b 1) := by
  have h1 : (pt b 1).val % 2 = 1 := pt_odd b
  have h0 : ¬(pt b 1).val % 2 = 0 := by omega
  have e : (outsAt0 m c ((pt b 1).val - 1) (Nat.lt_of_le_of_lt (Nat.sub_le _ _) (pt b 1).isLt)) = outsAt0 m c (pt b 0).val (pt b 0).isLt := outsAt0_congr m c (pt_pred b) _ _
  rw [outsAt0_B m c (pt b 1) h0 h1]
  dsimp only
  refine (outB_3 c (grid0.coords (pt b 1)) (ms0_0 (pt b 1)) (hs0_0 (pt b 1)) (ms0_1 (pt b 1)) (hs0_1 (pt b 1)) (ms0_2 (pt b 1)) (hs0_2 (pt b 1)) (ms0_3 (pt b 1)) (hs0_3 (pt b 1)) (ms0_4 (pt b 1)) (hs0_4 (pt b 1)) (ms0_5 (pt b 1)) (hs0_5 (pt b 1)) (ms0_6 (pt b 1)) (hs0_6 (pt b 1)) scM0_0 (Memref.isWhole_whole _) scM0_1 (Memref.isWhole_whole _) scM0_2 (Memref.isWhole_whole _) scM0_3 (Memref.isWhole_whole _) scM0_4 (Memref.isWhole_whole _) (fun h => h0 ((hcond0_0 (pt b 1)).mp h)) ((hcond0_1 (pt b 1)).mpr h1) (iblk m c 0 (pt b 1)) (iblk m c 1 (pt b 1))
    (outsAt0 m c ((pt b 1).val - 1) (Nat.lt_of_le_of_lt (Nat.sub_le _ _) (pt b 1).isLt)).2.2.2.2.2.1 (outsAt0 m c ((pt b 1).val - 1) (Nat.lt_of_le_of_lt (Nat.sub_le _ _) (pt b 1).isLt)).2.2.2.2.2.2.1 (outsAt0 m c ((pt b 1).val - 1) (Nat.lt_of_le_of_lt (Nat.sub_le _ _) (pt b 1).isLt)).2.2.2.2.2.2.2.1 (outsAt0 m c ((pt b 1).val - 1) (Nat.lt_of_le_of_lt (Nat.sub_le _ _) (pt b 1).isLt)).2.2.2.2.2.2.2.2.1 (outsAt0 m c ((pt b 1).val - 1) (Nat.lt_of_le_of_lt (Nat.sub_le _ _) (pt b 1).isLt)).2.2.2.2.2.2.2.2.2).trans ?_
  rw [e, accA_1]
  rfl

/-- Output 4's staging buffer after point 2b + 1: batch b's block. -/
theorem blkB_4 (c : Dev nD) (b : Fin 8) :
    (outsAt0 m c (pt b 1).val (pt b 1).isLt).2.2.1 = blk2 (xhalf m c b 0) (yhalf m c b 0) (xhalf m c b 1) (yhalf m c b 1) := by
  have h1 : (pt b 1).val % 2 = 1 := pt_odd b
  have h0 : ¬(pt b 1).val % 2 = 0 := by omega
  have e : (outsAt0 m c ((pt b 1).val - 1) (Nat.lt_of_le_of_lt (Nat.sub_le _ _) (pt b 1).isLt)) = outsAt0 m c (pt b 0).val (pt b 0).isLt := outsAt0_congr m c (pt_pred b) _ _
  rw [outsAt0_B m c (pt b 1) h0 h1]
  dsimp only
  refine (outB_4 c (grid0.coords (pt b 1)) (ms0_0 (pt b 1)) (hs0_0 (pt b 1)) (ms0_1 (pt b 1)) (hs0_1 (pt b 1)) (ms0_2 (pt b 1)) (hs0_2 (pt b 1)) (ms0_3 (pt b 1)) (hs0_3 (pt b 1)) (ms0_4 (pt b 1)) (hs0_4 (pt b 1)) (ms0_5 (pt b 1)) (hs0_5 (pt b 1)) (ms0_6 (pt b 1)) (hs0_6 (pt b 1)) scM0_0 (Memref.isWhole_whole _) scM0_1 (Memref.isWhole_whole _) scM0_2 (Memref.isWhole_whole _) scM0_3 (Memref.isWhole_whole _) scM0_4 (Memref.isWhole_whole _) (fun h => h0 ((hcond0_0 (pt b 1)).mp h)) ((hcond0_1 (pt b 1)).mpr h1) (iblk m c 0 (pt b 1)) (iblk m c 1 (pt b 1))
    (outsAt0 m c ((pt b 1).val - 1) (Nat.lt_of_le_of_lt (Nat.sub_le _ _) (pt b 1).isLt)).2.2.2.2.2.1 (outsAt0 m c ((pt b 1).val - 1) (Nat.lt_of_le_of_lt (Nat.sub_le _ _) (pt b 1).isLt)).2.2.2.2.2.2.1 (outsAt0 m c ((pt b 1).val - 1) (Nat.lt_of_le_of_lt (Nat.sub_le _ _) (pt b 1).isLt)).2.2.2.2.2.2.2.1 (outsAt0 m c ((pt b 1).val - 1) (Nat.lt_of_le_of_lt (Nat.sub_le _ _) (pt b 1).isLt)).2.2.2.2.2.2.2.2.1 (outsAt0 m c ((pt b 1).val - 1) (Nat.lt_of_le_of_lt (Nat.sub_le _ _) (pt b 1).isLt)).2.2.2.2.2.2.2.2.2).trans ?_
  rw [e, accA_2]
  rfl

/-- Output 5's staging buffer after point 2b + 1: batch b's block. -/
theorem blkB_5 (c : Dev nD) (b : Fin 8) :
    (outsAt0 m c (pt b 1).val (pt b 1).isLt).2.2.2.1 = blk3 (xhalf m c b 0) (yhalf m c b 0) (xhalf m c b 1) (yhalf m c b 1) := by
  have h1 : (pt b 1).val % 2 = 1 := pt_odd b
  have h0 : ¬(pt b 1).val % 2 = 0 := by omega
  have e : (outsAt0 m c ((pt b 1).val - 1) (Nat.lt_of_le_of_lt (Nat.sub_le _ _) (pt b 1).isLt)) = outsAt0 m c (pt b 0).val (pt b 0).isLt := outsAt0_congr m c (pt_pred b) _ _
  rw [outsAt0_B m c (pt b 1) h0 h1]
  dsimp only
  refine (outB_5 c (grid0.coords (pt b 1)) (ms0_0 (pt b 1)) (hs0_0 (pt b 1)) (ms0_1 (pt b 1)) (hs0_1 (pt b 1)) (ms0_2 (pt b 1)) (hs0_2 (pt b 1)) (ms0_3 (pt b 1)) (hs0_3 (pt b 1)) (ms0_4 (pt b 1)) (hs0_4 (pt b 1)) (ms0_5 (pt b 1)) (hs0_5 (pt b 1)) (ms0_6 (pt b 1)) (hs0_6 (pt b 1)) scM0_0 (Memref.isWhole_whole _) scM0_1 (Memref.isWhole_whole _) scM0_2 (Memref.isWhole_whole _) scM0_3 (Memref.isWhole_whole _) scM0_4 (Memref.isWhole_whole _) (fun h => h0 ((hcond0_0 (pt b 1)).mp h)) ((hcond0_1 (pt b 1)).mpr h1) (iblk m c 0 (pt b 1)) (iblk m c 1 (pt b 1))
    (outsAt0 m c ((pt b 1).val - 1) (Nat.lt_of_le_of_lt (Nat.sub_le _ _) (pt b 1).isLt)).2.2.2.2.2.1 (outsAt0 m c ((pt b 1).val - 1) (Nat.lt_of_le_of_lt (Nat.sub_le _ _) (pt b 1).isLt)).2.2.2.2.2.2.1 (outsAt0 m c ((pt b 1).val - 1) (Nat.lt_of_le_of_lt (Nat.sub_le _ _) (pt b 1).isLt)).2.2.2.2.2.2.2.1 (outsAt0 m c ((pt b 1).val - 1) (Nat.lt_of_le_of_lt (Nat.sub_le _ _) (pt b 1).isLt)).2.2.2.2.2.2.2.2.1 (outsAt0 m c ((pt b 1).val - 1) (Nat.lt_of_le_of_lt (Nat.sub_le _ _) (pt b 1).isLt)).2.2.2.2.2.2.2.2.2).trans ?_
  rw [e, accA_3]
  rfl

/-- Output 6's staging buffer after point 2b + 1: batch b's block. -/
theorem blkB_6 (c : Dev nD) (b : Fin 8) :
    (outsAt0 m c (pt b 1).val (pt b 1).isLt).2.2.2.2.1 = blk4 (xhalf m c b 0) (yhalf m c b 0) (xhalf m c b 1) (yhalf m c b 1) := by
  have h1 : (pt b 1).val % 2 = 1 := pt_odd b
  have h0 : ¬(pt b 1).val % 2 = 0 := by omega
  have e : (outsAt0 m c ((pt b 1).val - 1) (Nat.lt_of_le_of_lt (Nat.sub_le _ _) (pt b 1).isLt)) = outsAt0 m c (pt b 0).val (pt b 0).isLt := outsAt0_congr m c (pt_pred b) _ _
  rw [outsAt0_B m c (pt b 1) h0 h1]
  dsimp only
  refine (outB_6 c (grid0.coords (pt b 1)) (ms0_0 (pt b 1)) (hs0_0 (pt b 1)) (ms0_1 (pt b 1)) (hs0_1 (pt b 1)) (ms0_2 (pt b 1)) (hs0_2 (pt b 1)) (ms0_3 (pt b 1)) (hs0_3 (pt b 1)) (ms0_4 (pt b 1)) (hs0_4 (pt b 1)) (ms0_5 (pt b 1)) (hs0_5 (pt b 1)) (ms0_6 (pt b 1)) (hs0_6 (pt b 1)) scM0_0 (Memref.isWhole_whole _) scM0_1 (Memref.isWhole_whole _) scM0_2 (Memref.isWhole_whole _) scM0_3 (Memref.isWhole_whole _) scM0_4 (Memref.isWhole_whole _) (fun h => h0 ((hcond0_0 (pt b 1)).mp h)) ((hcond0_1 (pt b 1)).mpr h1) (iblk m c 0 (pt b 1)) (iblk m c 1 (pt b 1))
    (outsAt0 m c ((pt b 1).val - 1) (Nat.lt_of_le_of_lt (Nat.sub_le _ _) (pt b 1).isLt)).2.2.2.2.2.1 (outsAt0 m c ((pt b 1).val - 1) (Nat.lt_of_le_of_lt (Nat.sub_le _ _) (pt b 1).isLt)).2.2.2.2.2.2.1 (outsAt0 m c ((pt b 1).val - 1) (Nat.lt_of_le_of_lt (Nat.sub_le _ _) (pt b 1).isLt)).2.2.2.2.2.2.2.1 (outsAt0 m c ((pt b 1).val - 1) (Nat.lt_of_le_of_lt (Nat.sub_le _ _) (pt b 1).isLt)).2.2.2.2.2.2.2.2.1 (outsAt0 m c ((pt b 1).val - 1) (Nat.lt_of_le_of_lt (Nat.sub_le _ _) (pt b 1).isLt)).2.2.2.2.2.2.2.2.2).trans ?_
  rw [e, accA_4]
  rfl

/-! ## Where a lower-half point's block sits in the array -/

/-- A point's block index: its batch on the leading axis, zero on the others (the same map for the five outputs). -/
theorem idx_2 : ∀ t : Fin grid0.N, win0_2.index t 0 = t.val / 2 ∧ win0_2.index t 1 = 0 ∧ win0_2.index t 2 = 0 := by decide +kernel
theorem idx_3 : ∀ t : Fin grid0.N, win0_3.index t 0 = t.val / 2 ∧ win0_3.index t 1 = 0 ∧ win0_3.index t 2 = 0 := by decide +kernel
theorem idx_4 : ∀ t : Fin grid0.N, win0_4.index t 0 = t.val / 2 ∧ win0_4.index t 1 = 0 ∧ win0_4.index t 2 = 0 := by decide +kernel
theorem idx_5 : ∀ t : Fin grid0.N, win0_5.index t 0 = t.val / 2 ∧ win0_5.index t 1 = 0 ∧ win0_5.index t 2 = 0 := by decide +kernel
theorem idx_6 : ∀ t : Fin grid0.N, win0_6.index t 0 = t.val / 2 ∧ win0_6.index t 1 = 0 ∧ win0_6.index t 2 = 0 := by decide +kernel

/-- Array 0 at an index of batch b, against batch b's block at the same row and column. -/
theorem arr0_at (c : Dev nD) (b : Fin 8) (i : S8x16x1.Idx) (y : S1x16x1.Idx)
    (h0 : (i 0 : Nat) = b.val) (h1 : (i 1 : Nat) = (y 1 : Nat)) (h2 : (i 2 : Nat) = (y 2 : Nat)) :
    blk0 (xhalf m c b 0) (yhalf m c b 0) (xhalf m c b 1) (yhalf m c b 1) y = arr0 m c i := by
  obtain rfl : b = i 0 := Fin.ext h0.symm
  unfold arr0
  refine congrArg _ ?_
  funext a; apply Fin.ext
  match a with
  | ⟨0, _⟩ => show (y 0 : Nat) = 0; have h : (y 0 : Nat) < 1 := (y 0).isLt; omega
  | ⟨1, _⟩ => exact h1.symm
  | ⟨2, _⟩ => exact h2.symm

/-- Batch b's block is block 2b + 1 of array 0, read through the window. -/
theorem cut_blk_2 (c : Dev nD) (b : Fin 8) :
    (cfg0.win 2).cut (grid0.coords (pt b 1)) (blk0 (xhalf m c b 0) (yhalf m c b 0) (xhalf m c b 1) (yhalf m c b 1))
      = ((cfg0.win 2).blk (pt b 1)).view.read (Elt F) (arr0 m c) := by
  funext y
  rw [View.read_apply]
  have hi := idx_2 (pt b 1)
  have e0 : ((((cfg0.win 2).blk (pt b 1)).view.emb y) 0 : Nat) = b.val := by
    show win0_2.index (pt b 1) 0 * 1 + 1 * (y 0).val = b.val
    have h : (y 0 : Nat) < 1 := (y 0).isLt
    rw [hi.1, pt_half]; omega
  have e1 : ((((cfg0.win 2).blk (pt b 1)).view.emb y) 1 : Nat) = (y 1).val := by
    show win0_2.index (pt b 1) 1 * 16 + 1 * (y 1).val = (y 1).val
    rw [hi.2.1]; omega
  have e2 : ((((cfg0.win 2).blk (pt b 1)).view.emb y) 2 : Nat) = (y 2).val := by
    show win0_2.index (pt b 1) 2 * 1 + 1 * (y 2).val = (y 2).val
    rw [hi.2.2]; omega
  exact arr0_at m c b (((cfg0.win 2).blk (pt b 1)).view.emb y) ((cfg0.win 2).xinj (grid0.coords (pt b 1)) y) e0 e1 e2

/-- Array 1 at an index of batch b, against batch b's block at the same row and column. -/
theorem arr1_at (c : Dev nD) (b : Fin 8) (i : S8x16x1.Idx) (y : S1x16x1.Idx)
    (h0 : (i 0 : Nat) = b.val) (h1 : (i 1 : Nat) = (y 1 : Nat)) (h2 : (i 2 : Nat) = (y 2 : Nat)) :
    blk1 (xhalf m c b 0) (yhalf m c b 0) (xhalf m c b 1) (yhalf m c b 1) y = arr1 m c i := by
  obtain rfl : b = i 0 := Fin.ext h0.symm
  unfold arr1
  refine congrArg _ ?_
  funext a; apply Fin.ext
  match a with
  | ⟨0, _⟩ => show (y 0 : Nat) = 0; have h : (y 0 : Nat) < 1 := (y 0).isLt; omega
  | ⟨1, _⟩ => exact h1.symm
  | ⟨2, _⟩ => exact h2.symm

/-- Batch b's block is block 2b + 1 of array 1, read through the window. -/
theorem cut_blk_3 (c : Dev nD) (b : Fin 8) :
    (cfg0.win 3).cut (grid0.coords (pt b 1)) (blk1 (xhalf m c b 0) (yhalf m c b 0) (xhalf m c b 1) (yhalf m c b 1))
      = ((cfg0.win 3).blk (pt b 1)).view.read (Elt F) (arr1 m c) := by
  funext y
  rw [View.read_apply]
  have hi := idx_3 (pt b 1)
  have e0 : ((((cfg0.win 3).blk (pt b 1)).view.emb y) 0 : Nat) = b.val := by
    show win0_3.index (pt b 1) 0 * 1 + 1 * (y 0).val = b.val
    have h : (y 0 : Nat) < 1 := (y 0).isLt
    rw [hi.1, pt_half]; omega
  have e1 : ((((cfg0.win 3).blk (pt b 1)).view.emb y) 1 : Nat) = (y 1).val := by
    show win0_3.index (pt b 1) 1 * 16 + 1 * (y 1).val = (y 1).val
    rw [hi.2.1]; omega
  have e2 : ((((cfg0.win 3).blk (pt b 1)).view.emb y) 2 : Nat) = (y 2).val := by
    show win0_3.index (pt b 1) 2 * 1 + 1 * (y 2).val = (y 2).val
    rw [hi.2.2]; omega
  exact arr1_at m c b (((cfg0.win 3).blk (pt b 1)).view.emb y) ((cfg0.win 3).xinj (grid0.coords (pt b 1)) y) e0 e1 e2

/-- Array 2 at an index of batch b, against batch b's block at the same row and column. -/
theorem arr2_at (c : Dev nD) (b : Fin 8) (i : S8x16x1.Idx) (y : S1x16x1.Idx)
    (h0 : (i 0 : Nat) = b.val) (h1 : (i 1 : Nat) = (y 1 : Nat)) (h2 : (i 2 : Nat) = (y 2 : Nat)) :
    blk2 (xhalf m c b 0) (yhalf m c b 0) (xhalf m c b 1) (yhalf m c b 1) y = arr2 m c i := by
  obtain rfl : b = i 0 := Fin.ext h0.symm
  unfold arr2
  refine congrArg _ ?_
  funext a; apply Fin.ext
  match a with
  | ⟨0, _⟩ => show (y 0 : Nat) = 0; have h : (y 0 : Nat) < 1 := (y 0).isLt; omega
  | ⟨1, _⟩ => exact h1.symm
  | ⟨2, _⟩ => exact h2.symm

/-- Batch b's block is block 2b + 1 of array 2, read through the window. -/
theorem cut_blk_4 (c : Dev nD) (b : Fin 8) :
    (cfg0.win 4).cut (grid0.coords (pt b 1)) (blk2 (xhalf m c b 0) (yhalf m c b 0) (xhalf m c b 1) (yhalf m c b 1))
      = ((cfg0.win 4).blk (pt b 1)).view.read (Elt F) (arr2 m c) := by
  funext y
  rw [View.read_apply]
  have hi := idx_4 (pt b 1)
  have e0 : ((((cfg0.win 4).blk (pt b 1)).view.emb y) 0 : Nat) = b.val := by
    show win0_4.index (pt b 1) 0 * 1 + 1 * (y 0).val = b.val
    have h : (y 0 : Nat) < 1 := (y 0).isLt
    rw [hi.1, pt_half]; omega
  have e1 : ((((cfg0.win 4).blk (pt b 1)).view.emb y) 1 : Nat) = (y 1).val := by
    show win0_4.index (pt b 1) 1 * 16 + 1 * (y 1).val = (y 1).val
    rw [hi.2.1]; omega
  have e2 : ((((cfg0.win 4).blk (pt b 1)).view.emb y) 2 : Nat) = (y 2).val := by
    show win0_4.index (pt b 1) 2 * 1 + 1 * (y 2).val = (y 2).val
    rw [hi.2.2]; omega
  exact arr2_at m c b (((cfg0.win 4).blk (pt b 1)).view.emb y) ((cfg0.win 4).xinj (grid0.coords (pt b 1)) y) e0 e1 e2

/-- Array 3 at an index of batch b, against batch b's block at the same row and column. -/
theorem arr3_at (c : Dev nD) (b : Fin 8) (i : S8x16x1.Idx) (y : S1x16x1.Idx)
    (h0 : (i 0 : Nat) = b.val) (h1 : (i 1 : Nat) = (y 1 : Nat)) (h2 : (i 2 : Nat) = (y 2 : Nat)) :
    blk3 (xhalf m c b 0) (yhalf m c b 0) (xhalf m c b 1) (yhalf m c b 1) y = arr3 m c i := by
  obtain rfl : b = i 0 := Fin.ext h0.symm
  unfold arr3
  refine congrArg _ ?_
  funext a; apply Fin.ext
  match a with
  | ⟨0, _⟩ => show (y 0 : Nat) = 0; have h : (y 0 : Nat) < 1 := (y 0).isLt; omega
  | ⟨1, _⟩ => exact h1.symm
  | ⟨2, _⟩ => exact h2.symm

/-- Batch b's block is block 2b + 1 of array 3, read through the window. -/
theorem cut_blk_5 (c : Dev nD) (b : Fin 8) :
    (cfg0.win 5).cut (grid0.coords (pt b 1)) (blk3 (xhalf m c b 0) (yhalf m c b 0) (xhalf m c b 1) (yhalf m c b 1))
      = ((cfg0.win 5).blk (pt b 1)).view.read (Elt F) (arr3 m c) := by
  funext y
  rw [View.read_apply]
  have hi := idx_5 (pt b 1)
  have e0 : ((((cfg0.win 5).blk (pt b 1)).view.emb y) 0 : Nat) = b.val := by
    show win0_5.index (pt b 1) 0 * 1 + 1 * (y 0).val = b.val
    have h : (y 0 : Nat) < 1 := (y 0).isLt
    rw [hi.1, pt_half]; omega
  have e1 : ((((cfg0.win 5).blk (pt b 1)).view.emb y) 1 : Nat) = (y 1).val := by
    show win0_5.index (pt b 1) 1 * 16 + 1 * (y 1).val = (y 1).val
    rw [hi.2.1]; omega
  have e2 : ((((cfg0.win 5).blk (pt b 1)).view.emb y) 2 : Nat) = (y 2).val := by
    show win0_5.index (pt b 1) 2 * 1 + 1 * (y 2).val = (y 2).val
    rw [hi.2.2]; omega
  exact arr3_at m c b (((cfg0.win 5).blk (pt b 1)).view.emb y) ((cfg0.win 5).xinj (grid0.coords (pt b 1)) y) e0 e1 e2

/-- Array 4 at an index of batch b, against batch b's block at the same row and column. -/
theorem arr4_at (c : Dev nD) (b : Fin 8) (i : S8x16x1.Idx) (y : S1x16x1.Idx)
    (h0 : (i 0 : Nat) = b.val) (h1 : (i 1 : Nat) = (y 1 : Nat)) (h2 : (i 2 : Nat) = (y 2 : Nat)) :
    blk4 (xhalf m c b 0) (yhalf m c b 0) (xhalf m c b 1) (yhalf m c b 1) y = arr4 m c i := by
  obtain rfl : b = i 0 := Fin.ext h0.symm
  unfold arr4
  refine congrArg _ ?_
  funext a; apply Fin.ext
  match a with
  | ⟨0, _⟩ => show (y 0 : Nat) = 0; have h : (y 0 : Nat) < 1 := (y 0).isLt; omega
  | ⟨1, _⟩ => exact h1.symm
  | ⟨2, _⟩ => exact h2.symm

/-- Batch b's block is block 2b + 1 of array 4, read through the window. -/
theorem cut_blk_6 (c : Dev nD) (b : Fin 8) :
    (cfg0.win 6).cut (grid0.coords (pt b 1)) (blk4 (xhalf m c b 0) (yhalf m c b 0) (xhalf m c b 1) (yhalf m c b 1))
      = ((cfg0.win 6).blk (pt b 1)).view.read (Elt F) (arr4 m c) := by
  funext y
  rw [View.read_apply]
  have hi := idx_6 (pt b 1)
  have e0 : ((((cfg0.win 6).blk (pt b 1)).view.emb y) 0 : Nat) = b.val := by
    show win0_6.index (pt b 1) 0 * 1 + 1 * (y 0).val = b.val
    have h : (y 0 : Nat) < 1 := (y 0).isLt
    rw [hi.1, pt_half]; omega
  have e1 : ((((cfg0.win 6).blk (pt b 1)).view.emb y) 1 : Nat) = (y 1).val := by
    show win0_6.index (pt b 1) 1 * 16 + 1 * (y 1).val = (y 1).val
    rw [hi.2.1]; omega
  have e2 : ((((cfg0.win 6).blk (pt b 1)).view.emb y) 2 : Nat) = (y 2).val := by
    show win0_6.index (pt b 1) 2 * 1 + 1 * (y 2).val = (y 2).val
    rw [hi.2.2]; omega
  exact arr4_at m c b (((cfg0.win 6).blk (pt b 1)).view.emb y) ((cfg0.win 6).xinj (grid0.coords (pt b 1)) y) e0 e1 e2

/-! ## What each write-back writes, and the cover -/

/-- Every point that writes output 2 back is a lower-half point, and writes its batch's block of array 0. -/
theorem flushed_2 (c : Dev nD) (t : Fin cfg0.N) (hf : (cfg0.win 2).flush t = true) :
    (dats m 0 c).flushed 2 t = ((cfg0.win 2).blk t).view.read (Elt F) (arr0 m c) := by
  have hN : cfg0.N = 16 := N_0
  have h1 : t.val % 2 = 1 := (flush0_2 t).mp hf
  have hb : t.val / 2 < 8 := by have := t.isLt; omega
  obtain ⟨b, rfl⟩ : ∃ b : Fin 8, t = pt b 1 :=
    ⟨⟨t.val / 2, hb⟩, Fin.ext (by show t.val = 2 * (t.val / 2) + 1; omega)⟩
  show (cfg0.win 2).cut (grid0.coords (pt b 1)) ((dats m 0 c).after 2 (pt b 1)) = _
  rw [after0_2, blkB_2]
  exact cut_blk_2 m c b

/-- Every index of array 0 lies in the block of its batch's lower-half point. -/
theorem cover_2 (i : S8x16x1.Idx) :
    ∃ t : Fin cfg0.N, (cfg0.win 2).flush t = true ∧ i ∈ ((cfg0.win 2).blk t).view.set := by
  have h0 : (i 0 : Nat) < 8 := (i 0).isLt
  have h1 : (i 1 : Nat) < 16 := (i 1).isLt
  have h2 : (i 2 : Nat) < 1 := (i 2).isLt
  have hi := idx_2 (pt (i 0) 1)
  have hp : (pt (i 0) 1).val / 2 = (i 0 : Nat) := pt_half (i 0)
  refine ⟨pt (i 0) 1, (flush0_2 _).mpr (pt_odd (i 0)), ?_⟩
  show i ∈ ((View.whole main_call0_v0_0).slice (win0_2.rect (pt (i 0) 1))).set
  rw [View.set_slice_whole, Rect.mem_set_unit]
  intro a
  match a with
  | ⟨0, _⟩ =>
    show win0_2.index (pt (i 0) 1) 0 * 1 ≤ (i 0 : Nat) ∧ (i 0 : Nat) < win0_2.index (pt (i 0) 1) 0 * 1 + 1
    rw [hi.1, hp]; omega
  | ⟨1, _⟩ =>
    show win0_2.index (pt (i 0) 1) 1 * 16 ≤ (i 1 : Nat) ∧ (i 1 : Nat) < win0_2.index (pt (i 0) 1) 1 * 16 + 16
    rw [hi.2.1]; omega
  | ⟨2, _⟩ =>
    show win0_2.index (pt (i 0) 1) 2 * 1 ≤ (i 2 : Nat) ∧ (i 2 : Nat) < win0_2.index (pt (i 0) 1) 2 * 1 + 1
    rw [hi.2.2]; omega

/-- Output 2's array after the run. -/
theorem final2 (c : Dev nD) : (dats m 0 c).arrAt 2 cfg0.N = arr0 m c :=
  (dats m 0 c).arrAt_eq_of_cover 2 (arr0 m c) (flushed_2 m c) cover_2

/-- Every point that writes output 3 back is a lower-half point, and writes its batch's block of array 1. -/
theorem flushed_3 (c : Dev nD) (t : Fin cfg0.N) (hf : (cfg0.win 3).flush t = true) :
    (dats m 0 c).flushed 3 t = ((cfg0.win 3).blk t).view.read (Elt F) (arr1 m c) := by
  have hN : cfg0.N = 16 := N_0
  have h1 : t.val % 2 = 1 := (flush0_3 t).mp hf
  have hb : t.val / 2 < 8 := by have := t.isLt; omega
  obtain ⟨b, rfl⟩ : ∃ b : Fin 8, t = pt b 1 :=
    ⟨⟨t.val / 2, hb⟩, Fin.ext (by show t.val = 2 * (t.val / 2) + 1; omega)⟩
  show (cfg0.win 3).cut (grid0.coords (pt b 1)) ((dats m 0 c).after 3 (pt b 1)) = _
  rw [after0_3, blkB_3]
  exact cut_blk_3 m c b

/-- Every index of array 1 lies in the block of its batch's lower-half point. -/
theorem cover_3 (i : S8x16x1.Idx) :
    ∃ t : Fin cfg0.N, (cfg0.win 3).flush t = true ∧ i ∈ ((cfg0.win 3).blk t).view.set := by
  have h0 : (i 0 : Nat) < 8 := (i 0).isLt
  have h1 : (i 1 : Nat) < 16 := (i 1).isLt
  have h2 : (i 2 : Nat) < 1 := (i 2).isLt
  have hi := idx_3 (pt (i 0) 1)
  have hp : (pt (i 0) 1).val / 2 = (i 0 : Nat) := pt_half (i 0)
  refine ⟨pt (i 0) 1, (flush0_3 _).mpr (pt_odd (i 0)), ?_⟩
  show i ∈ ((View.whole main_call0_v0_1).slice (win0_3.rect (pt (i 0) 1))).set
  rw [View.set_slice_whole, Rect.mem_set_unit]
  intro a
  match a with
  | ⟨0, _⟩ =>
    show win0_3.index (pt (i 0) 1) 0 * 1 ≤ (i 0 : Nat) ∧ (i 0 : Nat) < win0_3.index (pt (i 0) 1) 0 * 1 + 1
    rw [hi.1, hp]; omega
  | ⟨1, _⟩ =>
    show win0_3.index (pt (i 0) 1) 1 * 16 ≤ (i 1 : Nat) ∧ (i 1 : Nat) < win0_3.index (pt (i 0) 1) 1 * 16 + 16
    rw [hi.2.1]; omega
  | ⟨2, _⟩ =>
    show win0_3.index (pt (i 0) 1) 2 * 1 ≤ (i 2 : Nat) ∧ (i 2 : Nat) < win0_3.index (pt (i 0) 1) 2 * 1 + 1
    rw [hi.2.2]; omega

/-- Output 3's array after the run. -/
theorem final3 (c : Dev nD) : (dats m 0 c).arrAt 3 cfg0.N = arr1 m c :=
  (dats m 0 c).arrAt_eq_of_cover 3 (arr1 m c) (flushed_3 m c) cover_3

/-- Every point that writes output 4 back is a lower-half point, and writes its batch's block of array 2. -/
theorem flushed_4 (c : Dev nD) (t : Fin cfg0.N) (hf : (cfg0.win 4).flush t = true) :
    (dats m 0 c).flushed 4 t = ((cfg0.win 4).blk t).view.read (Elt F) (arr2 m c) := by
  have hN : cfg0.N = 16 := N_0
  have h1 : t.val % 2 = 1 := (flush0_4 t).mp hf
  have hb : t.val / 2 < 8 := by have := t.isLt; omega
  obtain ⟨b, rfl⟩ : ∃ b : Fin 8, t = pt b 1 :=
    ⟨⟨t.val / 2, hb⟩, Fin.ext (by show t.val = 2 * (t.val / 2) + 1; omega)⟩
  show (cfg0.win 4).cut (grid0.coords (pt b 1)) ((dats m 0 c).after 4 (pt b 1)) = _
  rw [after0_4, blkB_4]
  exact cut_blk_4 m c b

/-- Every index of array 2 lies in the block of its batch's lower-half point. -/
theorem cover_4 (i : S8x16x1.Idx) :
    ∃ t : Fin cfg0.N, (cfg0.win 4).flush t = true ∧ i ∈ ((cfg0.win 4).blk t).view.set := by
  have h0 : (i 0 : Nat) < 8 := (i 0).isLt
  have h1 : (i 1 : Nat) < 16 := (i 1).isLt
  have h2 : (i 2 : Nat) < 1 := (i 2).isLt
  have hi := idx_4 (pt (i 0) 1)
  have hp : (pt (i 0) 1).val / 2 = (i 0 : Nat) := pt_half (i 0)
  refine ⟨pt (i 0) 1, (flush0_4 _).mpr (pt_odd (i 0)), ?_⟩
  show i ∈ ((View.whole main_call0_v0_2).slice (win0_4.rect (pt (i 0) 1))).set
  rw [View.set_slice_whole, Rect.mem_set_unit]
  intro a
  match a with
  | ⟨0, _⟩ =>
    show win0_4.index (pt (i 0) 1) 0 * 1 ≤ (i 0 : Nat) ∧ (i 0 : Nat) < win0_4.index (pt (i 0) 1) 0 * 1 + 1
    rw [hi.1, hp]; omega
  | ⟨1, _⟩ =>
    show win0_4.index (pt (i 0) 1) 1 * 16 ≤ (i 1 : Nat) ∧ (i 1 : Nat) < win0_4.index (pt (i 0) 1) 1 * 16 + 16
    rw [hi.2.1]; omega
  | ⟨2, _⟩ =>
    show win0_4.index (pt (i 0) 1) 2 * 1 ≤ (i 2 : Nat) ∧ (i 2 : Nat) < win0_4.index (pt (i 0) 1) 2 * 1 + 1
    rw [hi.2.2]; omega

/-- Output 4's array after the run. -/
theorem final4 (c : Dev nD) : (dats m 0 c).arrAt 4 cfg0.N = arr2 m c :=
  (dats m 0 c).arrAt_eq_of_cover 4 (arr2 m c) (flushed_4 m c) cover_4

/-- Every point that writes output 5 back is a lower-half point, and writes its batch's block of array 3. -/
theorem flushed_5 (c : Dev nD) (t : Fin cfg0.N) (hf : (cfg0.win 5).flush t = true) :
    (dats m 0 c).flushed 5 t = ((cfg0.win 5).blk t).view.read (Elt F) (arr3 m c) := by
  have hN : cfg0.N = 16 := N_0
  have h1 : t.val % 2 = 1 := (flush0_5 t).mp hf
  have hb : t.val / 2 < 8 := by have := t.isLt; omega
  obtain ⟨b, rfl⟩ : ∃ b : Fin 8, t = pt b 1 :=
    ⟨⟨t.val / 2, hb⟩, Fin.ext (by show t.val = 2 * (t.val / 2) + 1; omega)⟩
  show (cfg0.win 5).cut (grid0.coords (pt b 1)) ((dats m 0 c).after 5 (pt b 1)) = _
  rw [after0_5, blkB_5]
  exact cut_blk_5 m c b

/-- Every index of array 3 lies in the block of its batch's lower-half point. -/
theorem cover_5 (i : S8x16x1.Idx) :
    ∃ t : Fin cfg0.N, (cfg0.win 5).flush t = true ∧ i ∈ ((cfg0.win 5).blk t).view.set := by
  have h0 : (i 0 : Nat) < 8 := (i 0).isLt
  have h1 : (i 1 : Nat) < 16 := (i 1).isLt
  have h2 : (i 2 : Nat) < 1 := (i 2).isLt
  have hi := idx_5 (pt (i 0) 1)
  have hp : (pt (i 0) 1).val / 2 = (i 0 : Nat) := pt_half (i 0)
  refine ⟨pt (i 0) 1, (flush0_5 _).mpr (pt_odd (i 0)), ?_⟩
  show i ∈ ((View.whole main_call0_v0_3).slice (win0_5.rect (pt (i 0) 1))).set
  rw [View.set_slice_whole, Rect.mem_set_unit]
  intro a
  match a with
  | ⟨0, _⟩ =>
    show win0_5.index (pt (i 0) 1) 0 * 1 ≤ (i 0 : Nat) ∧ (i 0 : Nat) < win0_5.index (pt (i 0) 1) 0 * 1 + 1
    rw [hi.1, hp]; omega
  | ⟨1, _⟩ =>
    show win0_5.index (pt (i 0) 1) 1 * 16 ≤ (i 1 : Nat) ∧ (i 1 : Nat) < win0_5.index (pt (i 0) 1) 1 * 16 + 16
    rw [hi.2.1]; omega
  | ⟨2, _⟩ =>
    show win0_5.index (pt (i 0) 1) 2 * 1 ≤ (i 2 : Nat) ∧ (i 2 : Nat) < win0_5.index (pt (i 0) 1) 2 * 1 + 1
    rw [hi.2.2]; omega

/-- Output 5's array after the run. -/
theorem final5 (c : Dev nD) : (dats m 0 c).arrAt 5 cfg0.N = arr3 m c :=
  (dats m 0 c).arrAt_eq_of_cover 5 (arr3 m c) (flushed_5 m c) cover_5

/-- Every point that writes output 6 back is a lower-half point, and writes its batch's block of array 4. -/
theorem flushed_6 (c : Dev nD) (t : Fin cfg0.N) (hf : (cfg0.win 6).flush t = true) :
    (dats m 0 c).flushed 6 t = ((cfg0.win 6).blk t).view.read (Elt F) (arr4 m c) := by
  have hN : cfg0.N = 16 := N_0
  have h1 : t.val % 2 = 1 := (flush0_6 t).mp hf
  have hb : t.val / 2 < 8 := by have := t.isLt; omega
  obtain ⟨b, rfl⟩ : ∃ b : Fin 8, t = pt b 1 :=
    ⟨⟨t.val / 2, hb⟩, Fin.ext (by show t.val = 2 * (t.val / 2) + 1; omega)⟩
  show (cfg0.win 6).cut (grid0.coords (pt b 1)) ((dats m 0 c).after 6 (pt b 1)) = _
  rw [after0_6, blkB_6]
  exact cut_blk_6 m c b

/-- Every index of array 4 lies in the block of its batch's lower-half point. -/
theorem cover_6 (i : S8x16x1.Idx) :
    ∃ t : Fin cfg0.N, (cfg0.win 6).flush t = true ∧ i ∈ ((cfg0.win 6).blk t).view.set := by
  have h0 : (i 0 : Nat) < 8 := (i 0).isLt
  have h1 : (i 1 : Nat) < 16 := (i 1).isLt
  have h2 : (i 2 : Nat) < 1 := (i 2).isLt
  have hi := idx_6 (pt (i 0) 1)
  have hp : (pt (i 0) 1).val / 2 = (i 0 : Nat) := pt_half (i 0)
  refine ⟨pt (i 0) 1, (flush0_6 _).mpr (pt_odd (i 0)), ?_⟩
  show i ∈ ((View.whole main_call0_v0_4).slice (win0_6.rect (pt (i 0) 1))).set
  rw [View.set_slice_whole, Rect.mem_set_unit]
  intro a
  match a with
  | ⟨0, _⟩ =>
    show win0_6.index (pt (i 0) 1) 0 * 1 ≤ (i 0 : Nat) ∧ (i 0 : Nat) < win0_6.index (pt (i 0) 1) 0 * 1 + 1
    rw [hi.1, hp]; omega
  | ⟨1, _⟩ =>
    show win0_6.index (pt (i 0) 1) 1 * 16 ≤ (i 1 : Nat) ∧ (i 1 : Nat) < win0_6.index (pt (i 0) 1) 1 * 16 + 16
    rw [hi.2.1]; omega
  | ⟨2, _⟩ =>
    show win0_6.index (pt (i 0) 1) 2 * 1 ≤ (i 2 : Nat) ∧ (i 2 : Nat) < win0_6.index (pt (i 0) 1) 2 * 1 + 1
    rw [hi.2.2]; omega

/-- Output 6's array after the run. -/
theorem final6 (c : Dev nD) : (dats m 0 c).arrAt 6 cfg0.N = arr4 m c :=
  (dats m 0 c).arrAt_eq_of_cover 6 (arr4 m c) (flushed_6 m c) cover_6

end Cert.KernelIdeal.Stats

end
-- ==== Proof.Spec.lean ====
/-
  The mathematics both programs are measured against, on the extended reals and free of either program.

  An input is an array over (batch b, frame t, row h, column w) of extents 8 x 16 x 512 x 512.  Every statistic the
  loss needs is, per (b, t), a sum over the 512 x 512 pixels of one pointwise function of the logit x and the target y.
  The kernel forms that sum in two halves of 256 rows each (one half per grid step along the rows), starting from a
  zeroed accumulator: `stat g b t = (0 + half 0) + half 1`.  The reference sums in one piece.  On the extended reals
  addition is commutative and associative, so the two agree; the laws that say so are in SumLaws.lean.

  The pointwise functions: the stable binary cross entropy `max x 0 - x y + log1p (exp (-|x|))`, written with the
  kernel's `0 - |x|` and with the reference's `-|x|`; and the sigmoid, which the kernel writes through the shared
  e = exp (-|x|) as 1/(1+e) for x >= 0 and e * (1/(1+e)) for x < 0, and the reference as 1/(1 + exp (-x)).
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Spec

/-- The shape of an input: (batch, frame, row, column). -/
abbrev SIn : Shape := ⟨4, ![8, 16, 512, 512]⟩
/-- An input with frame, row and column flattened, as the reference's dice terms read it. -/
abbrev SFlat : Shape := ⟨2, ![8, 4194304]⟩
/-- Per (batch, frame). -/
abbrev SBT : Shape := ⟨2, ![8, 16]⟩
/-- Per (batch, frame) with the trailing unit axis the kernel's outputs carry. -/
abbrev SBT1 : Shape := ⟨3, ![8, 16, 1]⟩
/-- Per batch. -/
abbrev SB : Shape := ⟨1, ![8]⟩
/-- A scalar. -/
abbrev S0 : Shape := ⟨0, ![]⟩

/-- The pixel (b, t, 256 hh + h, w): row h of the half hh of frame t of batch b. -/
def at4 (b : Fin 8) (t : Fin 16) (hh : Fin 2) (h : Fin 256) (w : Fin 512) : SIn.Idx :=
  ix4 b t (⟨256 * hh.val + h.val, by have := hh.isLt; have := h.isLt; omega⟩ : Fin 512) w

/-- The sum of g over the 256 x 512 pixels of one half of frame (b, t): columns first, then rows. -/
def halfSum (g : SIn.Idx → EReal) (b : Fin 8) (t : Fin 16) (hh : Fin 2) : EReal :=
  ∑ h : Fin 256, ∑ w : Fin 512, g (at4 b t hh h w)

/-- The kernel's accumulated statistic of frame (b, t): the zeroed accumulator plus the upper half, plus the lower. -/
def stat (g : SIn.Idx → EReal) (b : Fin 8) (t : Fin 16) : EReal :=
  (0 + halfSum g b t 0) + halfSum g b t 1

/-! ## The pointwise functions -/

/-- exp (0 - |x|), the kernel's one shared transcendental (|x| is max x (-x)). -/
def eK (x : EReal) : EReal := Ideal.exp (0 - max x (-x))
/-- 1 / (1 + e). -/
def rK (x : EReal) : EReal := Ideal.div 1 (1 + eK x)
/-- The kernel's sigmoid: 1/(1+e) where 0 <= x, else e * (1/(1+e)). -/
def sigK (x : EReal) : EReal := Scalar.select (Ideal.cmp .oge x 0) (rK x) (eK x * rK x)
/-- The kernel's cross-entropy term. -/
def bceK (x y : EReal) : EReal := max x 0 - x * y + Ideal.log1p (eK x)
/-- The reference's sigmoid, 1 / (1 + exp (-x)). -/
def sigR (x : EReal) : EReal := Ideal.div 1 (1 + Ideal.exp (-x))
/-- The reference's cross-entropy term. -/
def bceR (x y : EReal) : EReal := max x 0 - x * y + Ideal.log1p (Ideal.exp (-(max x (-x))))

end Cert.Spec

end
-- ==== Proof.Tail.lean ====
/-
  What both programs do with the five statistics once they have them: the loss.

  From the cross-entropy total a, and per batch the sums P of the sigmoid, T of the target and PT of their product,
  and per (batch, frame) the logit sums s:
    bce  = a / 2^25,
    dice = 1 - (sum over batches of (2 PT + eps) / ((P + T) + eps)) / 8,
    d    = | s[:, 1:] - s[:, :-1] |,   ssl = sum of max (d - 100) 0 squared,
    loss = (0.5 bce + dice) + 0.1 ssl,
  every constant the binary32 word both programs print.  Both programs compute exactly this expression of their five
  inputs, so the two results agree as soon as the five inputs do; the expression itself is never opened.
-/
import proofs.«401697_j40973988004466_4_alg».proof.Proof.Spec
import Idealize.ShloMosaic.PureOps.Contract

noncomputable section

open Idealize.ShloMosaic

namespace Cert.Spec

/-- Differences of neighbouring frames: (batch, 15). -/
abbrev SBD : Shape := ⟨2, ![8, 15]⟩

variable {F : FTy → Type} [FloatOps F]

/-- The loss as a function of the five statistics. -/
def tail (a : FVec F S0 .f32) (P T PT : FVec F SB .f32) (s : FVec F SBT .f32) : FVec F S0 .f32 :=
  addf
    (addf
      (mulf (constant S0 .f32 0x3F000000#32) (Host.divf a (constant S0 .f32 0x4C000000#32)))
      (subf (constant S0 .f32 0x3F800000#32)
        (Host.divf
          (Host.reduceAdd (axes := [0]) (t := S0)
            (Host.divf
              (addf (mulf (broadcastInDim SB ![] (by decide) (constant S0 .f32 0x40000000#32)) PT)
                (broadcastInDim SB ![] (by decide) (constant S0 .f32 0x3727C5AC#32)))
              (addf (addf P T) (broadcastInDim SB ![] (by decide) (constant S0 .f32 0x3727C5AC#32))))
            (constant S0 .f32 0x00000000#32))
          (constant S0 .f32 0x41000000#32))))
    (mulf (constant S0 .f32 0x3DCCCCCD#32)
      (Host.reduceAdd (axes := [0, 1]) (t := S0)
        (mulf
          (maximumf
            (subf
              (Host.absf
                (subf (extractStridedSlice SBD ![0, 1] s (by decide)) (extractStridedSlice SBD ![0, 0] s (by decide))))
              (broadcastInDim SBD ![] (by decide) (constant S0 .f32 0x42C80000#32)))
            (broadcastInDim SBD ![] (by decide) (constant S0 .f32 0x00000000#32)))
          (maximumf
            (subf
              (Host.absf
                (subf (extractStridedSlice SBD ![0, 1] s (by decide)) (extractStridedSlice SBD ![0, 0] s (by decide))))
              (broadcastInDim SBD ![] (by decide) (constant S0 .f32 0x42C80000#32)))
            (broadcastInDim SBD ![] (by decide) (constant S0 .f32 0x00000000#32))))
        (constant S0 .f32 0x00000000#32)))

end Cert.Spec

end
-- ==== Proof.KStats.lean ====
/-
  The five statistics the host takes from the kernel's five output arrays, and the loss of them: each array's trailing
  unit axis is dropped, then the array is summed over both axes (cross entropy), over the frames of each batch (the
  three dice terms), or kept per (batch, frame) (the logit sums).
-/
import proofs.«401697_j40973988004466_4_alg».proof.Proof.KDefs
import proofs.«401697_j40973988004466_4_alg».proof.Proof.Tail

noncomputable section

open Idealize.ShloMosaic Idealize.ShloMosaic.TcCoe Idealize.SL.Sem

namespace Cert.KernelIdeal.Stats

open Cert.KernelIdeal Cert.KernelIdeal.Gen Cert.KernelIdeal.GenP

variable {F : FTy → Type} [FloatOps F]

/-- An output array summed over batches and frames. -/
def kerTotal (A : FVec F S8x16x1 .f32) : FVec F S_ .f32 :=
  Host.reduceAdd (shapeCast S8x16 A shapeCasts_S8x16x1_S8x16) (constant S_ .f32 0x00000000#32) reducesTo_S8x16_S_d0_1 h_S_
/-- An output array summed over the frames of each batch. -/
def kerBatch (A : FVec F S8x16x1 .f32) : FVec F S8 .f32 :=
  Host.reduceAdd (shapeCast S8x16 A shapeCasts_S8x16x1_S8x16) (constant S_ .f32 0x00000000#32) reducesTo_S8x16_S8_d1 h_S_
/-- An output array per (batch, frame). -/
def kerFrames (A : FVec F S8x16x1 .f32) : FVec F S8x16 .f32 :=
  shapeCast S8x16 A shapeCasts_S8x16x1_S8x16

variable (m : (ℓ : Loc nD τ sig) → Buf (Elt F) ℓ)

/-- The loss the kernel's program ends with, on core c. -/
def result (c : Dev nD) : Buf (Elt F) ((c.tc : Thread nD τ).loc main_v0) :=
  Cert.Spec.tail (kerTotal (arr0 m c)) (kerBatch (arr1 m c)) (kerBatch (arr2 m c)) (kerBatch (arr3 m c)) (kerFrames (arr4 m c))

end Cert.KernelIdeal.Stats

end
-- ==== Proof.KTail.lean ====
/-
  The host lines that follow the launch, read: what they leave in the result buffer is the loss (Tail.lean) of the five
  statistics (KStats.lean) of the five output arrays as the launch left them.
-/
import proofs.«401697_j40973988004466_4_alg».proof.Proof.KStats
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Stats

open Cert.KernelIdeal Cert.KernelIdeal.Gen Cert.KernelIdeal.GenP

variable {F : FTy → Type} [FloatOps F]

variable (m : (ℓ : Loc nD τ sig) → Buf (Elt F) ℓ) (ρ : Dev nD → PrngReg)

set_option maxHeartbeats 8000000 in
/-- What the host lines after the launch leave in the result buffer, from the five arrays as the launch left them:
    the lines' fold is read off result by result; each of the five arrays is read where the launch's exit contents
    put it; what is left is the loss of the five statistics, definitionally. -/
theorem tail_value (c : Dev nD) :
    Pipeline.afterTail₀ cfgs (dats m) 0 (V0 m) [hostOps1] c main_v0
      = Cert.Spec.tail (kerTotal ((dats m 0 c).arrAt 2 cfg0.N)) (kerBatch ((dats m 0 c).arrAt 3 cfg0.N))
          (kerBatch ((dats m 0 c).arrAt 4 cfg0.N)) (kerBatch ((dats m 0 c).arrAt 5 cfg0.N))
          (kerFrames ((dats m 0 c).arrAt 6 cfg0.N)) := by
  unfold Pipeline.afterTail₀
  show StableHlo.after hostOps1 _ (Proc.devRef .tc main_v0) = _
  after_results
  have e2 : Pipeline.withArrays (cfgs 0).spec c (V0 m c) (fun w => (dats m 0 c).arrAt w (cfgs 0).N) (Proc.devRef .tc main_call0_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_call0_v0_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_call0_v0_2)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_call0_v0_3)
      = (dats m 0 c).arrAt 5 cfg0.N := Pipeline.withArrays_arr spec0 launch0.win.arr_inj c _ _ 5
  have e6 : Pipeline.withArrays (cfgs 0).spec c (V0 m c) (fun w => (dats m 0 c).arrAt w (cfgs 0).N) (Proc.devRef .tc main_call0_v0_4)
      = (dats m 0 c).arrAt 6 cfg0.N := Pipeline.withArrays_arr spec0 launch0.win.arr_inj c _ _ 6
  simp only [e2, e3, e4, e5, e6]
  rfl

end Cert.KernelIdeal.Stats

end
-- ==== Proof.KRun.lean ====
/-
  The kernel's run, read: its result is the loss of the five statistics the host takes from the five output arrays,
  each array the per-batch block of the two half-frame updates (KDefs.lean), and its arguments are unchanged.
-/
import proofs.«401697_j40973988004466_4_alg».proof.Proof.KArrays
import proofs.«401697_j40973988004466_4_alg».proof.Proof.KTail

set_option maxRecDepth 16384

noncomputable section

open Idealize.ShloMosaic Idealize.ShloMosaic.TcCoe Idealize.SL.Sem
open Idealize.ShloMosaic.Pipeline (Dat)

namespace Cert.KernelIdeal.Stats

open Cert.KernelIdeal Cert.KernelIdeal.Gen Cert.KernelIdeal.GenP

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 rfl (by decide))).trans
        (by rw [tail_value, final2, final3, final4, final5, final6]; rfl),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Stats

end
-- ==== Proof.KValue.lean ====
/-
  The kernel's five output arrays, read at the extended reals: entry (b, t, 0) of output j is the accumulated statistic
  `stat g b t` (Spec.lean) of the pointwise function g that statistic sums — the cross-entropy term, the sigmoid, the
  target, their product, the logit.

  Why: an accumulator update adds to the accumulator, per frame t, the sum over the half frame's 256 rows of the sum
  over its 512 columns of the pointwise term (two lane reductions, columns then rows, each a plain finite sum at the
  extended reals); the accumulator starts at the zero word; the half frame hh of batch b, as the window stages it, is
  the input at rows 256 hh .. 256 hh + 255 of batch b.
-/
import proofs.«401697_j40973988004466_4_alg».proof.Proof.KDefs
import proofs.«401697_j40973988004466_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open scoped BigOperators

namespace Cert.KernelIdeal.Stats

open Cert.KernelIdeal Cert.KernelIdeal.Gen Cert.KernelIdeal.GenP Cert.Spec

/-! ## The two lane reductions and the cast to a column -/

/-- A vector of 16 given a trailing unit axis reads, at (t, u), the vector at t. -/
theorem cast_trail (v : FVec Ideal S16 .f32) (h : S16.ShapeCasts S16x1) (t : Fin 16) (u : Fin 1) :
    shapeCast S16x1 v h (ix2 t u) = v (ix1 t) :=
  shapeCast_apply v h _ _ (by
    have hu : u.val = 0 := by omega
    rw [Shape.rowMajor_val_one, Shape.rowMajor_val_two]
    show t.val = t.val * 1 + u.val
    omega)

/-- The two lane reductions (columns, then rows) and the cast: per frame, the sum over rows of the sum over columns. -/
theorem red (v : FVec Ideal S16x256x512 .f32) (t : Fin 16) (u : Fin 1) :
    shapeCast S16x1 (multiReduction .add [1] S16 (multiReduction .add [2] S16x256 v 0x00000000#32
      reduces_S16x256x512_S16x256 (.inl rfl) rfl) 0x00000000#32 reduces_S16x256_S16 (.inl rfl) rfl) shapeCasts_S16_S16x1 (ix2 t u)
    = ∑ h : Fin 256, ∑ w : Fin 512, v (ix3 t h w) := by
  rw [cast_trail]
  refine (Ideal.multiReduction_add_single _ _ _ _ _ _).trans ?_
  refine Finset.sum_congr rfl fun h _ => ?_
  refine (Ideal.multiReduction_add_single _ _ _ _ _ _).trans ?_
  refine Finset.sum_congr rfl fun w _ => ?_
  refine congrArg v (funext fun a => Fin.ext ?_)
  match a with
  | ⟨0, _⟩ => rfl
  | ⟨1, _⟩ => rfl
  | ⟨2, _⟩ => rfl

section Payloads

variable (x y : Vec Ideal S1x16x256x512 .f32)

/-! ## The half frame's pointwise vectors at an index -/

theorem pay11_apply (t : Fin 16) (h : Fin 256) (w : Fin 512) :
    k0_pay11 x (ix3 t h w) = x (ix4 (0 : Fin 1) t h w) := shapeCast_1abc_abc_apply _ _ t h w

theorem pay12_apply (t : Fin 16) (h : Fin 256) (w : Fin 512) :
    k0_pay12 y (ix3 t h w) = y (ix4 (0 : Fin 1) t h w) := shapeCast_1abc_abc_apply _ _ t h w

theorem pay13_apply (t : Fin 16) (h : Fin 256) (w : Fin 512) :
    k0_pay13 x (ix3 t h w) = eK (x (ix4 (0 : Fin 1) t h w)) := by
  show Ideal.exp (Ideal.ofBits .f32 0x00000000#32 - max (k0_pay11 x (ix3 t h w)) (-(k0_pay11 x (ix3 t h w)))) = _
  rw [pay11_apply, Ideal.ofBits_zero_f32]
  rfl

theorem one_f32 : Ideal.ofBits .f32 0x3F800000#32 = 1 := IdealRules.sign_bit.ideal_onePat .f32

theorem pay14_apply (t : Fin 16) (h : Fin 256) (w : Fin 512) :
    k0_pay14 x (ix3 t h w) = sigK (x (ix4 (0 : Fin 1) t h w)) := by
  show Scalar.select (Ideal.cmp .oge (k0_pay11 x (ix3 t h w)) (Ideal.ofBits .f32 0x00000000#32))
      (Ideal.div (Ideal.ofBits .f32 0x3F800000#32) (Ideal.ofBits .f32 0x3F800000#32 + k0_pay13 x (ix3 t h w)))
      (k0_pay13 x (ix3 t h w) * Ideal.div (Ideal.ofBits .f32 0x3F800000#32) (Ideal.ofBits .f32 0x3F800000#32 + k0_pay13 x (ix3 t h w))) = _
  rw [pay11_apply, pay13_apply, Ideal.ofBits_zero_f32, one_f32]
  rfl

theorem pay15_apply (t : Fin 16) (h : Fin 256) (w : Fin 512) :
    k0_pay15 x y (ix3 t h w) = sigK (x (ix4 (0 : Fin 1) t h w)) * y (ix4 (0 : Fin 1) t h w) := by
  show k0_pay14 x (ix3 t h w) * k0_pay12 y (ix3 t h w) = _
  rw [pay14_apply, pay12_apply]

/-! ## The half frame's partial sums -/

theorem pay16_apply (t : Fin 16) (u : Fin 1) :
    k0_pay16 x y (ix2 t u) = ∑ h : Fin 256, ∑ w : Fin 512, bceK (x (ix4 (0 : Fin 1) t h w)) (y (ix4 (0 : Fin 1) t h w)) := by
  unfold k0_pay16
  refine (red _ t u).trans ?_
  refine Finset.sum_congr rfl fun h _ => Finset.sum_congr rfl fun w _ => ?_
  show max (k0_pay11 x (ix3 t h w)) (Ideal.ofBits .f32 0x00000000#32) - k0_pay11 x (ix3 t h w) * k0_pay12 y (ix3 t h w)
      + Ideal.log1p (k0_pay13 x (ix3 t h w)) = _
  rw [pay11_apply, pay12_apply, pay13_apply, Ideal.ofBits_zero_f32]
  rfl

theorem pay17_apply (t : Fin 16) (u : Fin 1) :
    k0_pay17 x (ix2 t u) = ∑ h : Fin 256, ∑ w : Fin 512, sigK (x (ix4 (0 : Fin 1) t h w)) := by
  unfold k0_pay17
  refine (red _ t u).trans ?_
  exact Finset.sum_congr rfl fun h _ => Finset.sum_congr rfl fun w _ => pay14_apply x t h w

theorem pay18_apply (t : Fin 16) (u : Fin 1) :
    k0_pay18 y (ix2 t u) = ∑ h : Fin 256, ∑ w : Fin 512, y (ix4 (0 : Fin 1) t h w) := by
  unfold k0_pay18
  refine (red _ t u).trans ?_
  exact Finset.sum_congr rfl fun h _ => Finset.sum_congr rfl fun w _ => pay12_apply y t h w

/-! ## One half frame into an accumulator -/

variable (a : Vec Ideal S16x1 .f32)

theorem upd0_apply (t : Fin 16) (u : Fin 1) :
    upd0 x y a (ix2 t u) = a (ix2 t u) + ∑ h : Fin 256, ∑ w : Fin 512, bceK (x (ix4 (0 : Fin 1) t h w)) (y (ix4 (0 : Fin 1) t h w)) := by
  unfold upd0 k0_pay19
  rw [shapeCast_self]
  show a (ix2 t u) + k0_pay16 x y (ix2 t u) = _
  rw [pay16_apply]

theorem upd1_apply (t : Fin 16) (u : Fin 1) :
    upd1 x y a (ix2 t u) = a (ix2 t u) + ∑ h : Fin 256, ∑ w : Fin 512, sigK (x (ix4 (0 : Fin 1) t h w)) := by
  unfold upd1 k0_pay20
  rw [shapeCast_self]
  show a (ix2 t u) + k0_pay17 x (ix2 t u) = _
  rw [pay17_apply]

theorem upd2_apply (t : Fin 16) (u : Fin 1) :
    upd2 x y a (ix2 t u) = a (ix2 t u) + ∑ h : Fin 256, ∑ w : Fin 512, y (ix4 (0 : Fin 1) t h w) := by
  unfold upd2 k0_pay21
  rw [shapeCast_self]
  show a (ix2 t u) + k0_pay18 y (ix2 t u) = _
  rw [pay18_apply]

theorem upd3_apply (t : Fin 16) (u : Fin 1) :
    upd3 x y a (ix2 t u) = a (ix2 t u)
      + ∑ h : Fin 256, ∑ w : Fin 512, sigK (x (ix4 (0 : Fin 1) t h w)) * y (ix4 (0 : Fin 1) t h w) := by
  unfold upd3 k0_pay22
  rw [shapeCast_self]
  refine congrArg (a (ix2 t u) + ·) ((red _ t u).trans ?_)
  exact Finset.sum_congr rfl fun h _ => Finset.sum_congr rfl fun w _ => pay15_apply x y t h w

theorem upd4_apply (t : Fin 16) (u : Fin 1) :
    upd4 x y a (ix2 t u) = a (ix2 t u) + ∑ h : Fin 256, ∑ w : Fin 512, x (ix4 (0 : Fin 1) t h w) := by
  unfold upd4 k0_pay23
  rw [shapeCast_self]
  refine congrArg (a (ix2 t u) + ·) ((red _ t u).trans ?_)
  exact Finset.sum_congr rfl fun h _ => Finset.sum_congr rfl fun w _ => pay11_apply x t h w

/-! ## The zeroed accumulators -/

theorem zero_apply (j : S16x1.Idx) :
    shapeCast S16x1 (broadcast S16x1 (Scalar.ofBits (F := Ideal) .f32 0x00000000#32)) shapeCasts_S16x1_S16x1 j = 0 := by
  rw [shapeCast_self]
  exact Ideal.ofBits_zero_f32

theorem pay6_apply (j : S16x1.Idx) : (k0_pay6 : FVec Ideal S16x1 .f32) j = 0 := zero_apply j
theorem pay7_apply (j : S16x1.Idx) : (k0_pay7 : FVec Ideal S16x1 .f32) j = 0 := zero_apply j
theorem pay8_apply (j : S16x1.Idx) : (k0_pay8 : FVec Ideal S16x1 .f32) j = 0 := zero_apply j
theorem pay9_apply (j : S16x1.Idx) : (k0_pay9 : FVec Ideal S16x1 .f32) j = 0 := zero_apply j
theorem pay10_apply (j : S16x1.Idx) : (k0_pay10 : FVec Ideal S16x1 .f32) j = 0 := zero_apply j

/-! ## A batch's output block -/

variable (x' y' : Vec Ideal S1x16x256x512 .f32)

theorem blk0_apply (t : Fin 16) (u : Fin 1) :
    blk0 x y x' y' (ix3 (0 : Fin 1) t u)
      = (0 + ∑ h : Fin 256, ∑ w : Fin 512, bceK (x (ix4 (0 : Fin 1) t h w)) (y (ix4 (0 : Fin 1) t h w)))
        + ∑ h : Fin 256, ∑ w : Fin 512, bceK (x' (ix4 (0 : Fin 1) t h w)) (y' (ix4 (0 : Fin 1) t h w)) := by
  unfold blk0 k0_pay1
  refine (shapeCast_ab_1ab_apply _ _ 0 t u).trans ?_
  rw [upd0_apply, upd0_apply, pay6_apply]

theorem blk1_apply (t : Fin 16) (u : Fin 1) :
    blk1 x y x' y' (ix3 (0 : Fin 1) t u)
      = (0 + ∑ h : Fin 256, ∑ w : Fin 512, sigK (x (ix4 (0 : Fin 1) t h w)))
        + ∑ h : Fin 256, ∑ w : Fin 512, sigK (x' (ix4 (0 : Fin 1) t h w)) := by
  unfold blk1 k0_pay2
  refine (shapeCast_ab_1ab_apply _ _ 0 t u).trans ?_
  rw [upd1_apply, upd1_apply, pay7_apply]

theorem blk2_apply (t : Fin 16) (u : Fin 1) :
    blk2 x y x' y' (ix3 (0 : Fin 1) t u)
      = (0 + ∑ h : Fin 256, ∑ w : Fin 512, y (ix4 (0 : Fin 1) t h w))
        + ∑ h : Fin 256, ∑ w : Fin 512, y' (ix4 (0 : Fin 1) t h w) := by
  unfold blk2 k0_pay3
  refine (shapeCast_ab_1ab_apply _ _ 0 t u).trans ?_
  rw [upd2_apply, upd2_apply, pay8_apply]

theorem blk3_apply (t : Fin 16) (u : Fin 1) :
    blk3 x y x' y' (ix3 (0 : Fin 1) t u)
      = (0 + ∑ h : Fin 256, ∑ w : Fin 512, sigK (x (ix4 (0 : Fin 1) t h w)) * y (ix4 (0 : Fin 1) t h w))
        + ∑ h : Fin 256, ∑ w : Fin 512, sigK (x' (ix4 (0 : Fin 1) t h w)) * y' (ix4 (0 : Fin 1) t h w) := by
  unfold blk3 k0_pay4
  refine (shapeCast_ab_1ab_apply _ _ 0 t u).trans ?_
  rw [upd3_apply, upd3_apply, pay9_apply]

theorem blk4_apply (t : Fin 16) (u : Fin 1) :
    blk4 x y x' y' (ix3 (0 : Fin 1) t u)
      = (0 + ∑ h : Fin 256, ∑ w : Fin 512, x (ix4 (0 : Fin 1) t h w))
        + ∑ h : Fin 256, ∑ w : Fin 512, x' (ix4 (0 : Fin 1) t h w) := by
  unfold blk4 k0_pay5
  refine (shapeCast_ab_1ab_apply _ _ 0 t u).trans ?_
  rw [upd4_apply, upd4_apply, pay10_apply]

end Payloads

/-! ## The staged half frames are the inputs' rows -/

variable (m : (ℓ : Loc nD τ sig) → Buf (Elt Ideal) ℓ)

/-- The two inputs as the program finds them. -/
abbrev X (c : Dev nD) : SIn.Idx → EReal := m ((c.tc : Thread nD τ).loc main_arg0)
abbrev Y (c : Dev nD) : SIn.Idx → EReal := m ((c.tc : Thread nD τ).loc main_arg1)

/-- Where the two input windows sit at each grid point: batch t / 2, all frames, half t % 2, all columns. -/
theorem idx0 : ∀ t : Fin grid0.N, win0_0.index t 0 = t.val / 2 ∧ win0_0.index t 1 = 0 ∧ win0_0.index t 2 = t.val % 2 ∧ win0_0.index t 3 = 0 := by
  decide +kernel
theorem idx1 : ∀ t : Fin grid0.N, win0_1.index t 0 = t.val / 2 ∧ win0_1.index t 1 = 0 ∧ win0_1.index t 2 = t.val % 2 ∧ win0_1.index t 3 = 0 := by
  decide +kernel

/-- The logits' block at half hh of batch b, at (0, t, h, w), is the logit at (b, t, 256 hh + h, w). -/
theorem xhalf_apply (c : Dev nD) (b : Fin 8) (hh : Fin 2) (t : Fin 16) (h : Fin 256) (w : Fin 512) :
    xhalf m c b hh (ix4 (0 : Fin 1) t h w) = X m c (at4 b t hh h w) := by
  have hi := idx0 (pt b hh)
  have hb := b.isLt
  have hhh := hh.isLt
  unfold xhalf iblk
  rw [View.read_apply]
  show V m c main_arg0 _ = _
  rw [V_main_arg0]
  refine congrArg (m ((c.tc : Thread nD τ).loc main_arg0)) (funext fun a => Fin.ext ?_)
  match a with
  | ⟨0, _⟩ => show win0_0.index (pt b hh) 0 * 1 + 1 * 0 = b.val
              rw [hi.1]; show (2 * b.val + hh.val) / 2 * 1 + 1 * 0 = b.val; omega
  | ⟨1, _⟩ => show win0_0.index (pt b hh) 1 * 16 + 1 * t.val = t.val
              rw [hi.2.1]; omega
  | ⟨2, _⟩ => show win0_0.index (pt b hh) 2 * 256 + 1 * h.val = 256 * hh.val + h.val
              rw [hi.2.2.1]; show (2 * b.val + hh.val) % 2 * 256 + 1 * h.val = 256 * hh.val + h.val; omega
  | ⟨3, _⟩ => show win0_0.index (pt b hh) 3 * 512 + 1 * w.val = w.val
              rw [hi.2.2.2]; omega

/-- The targets' block likewise. -/
theorem yhalf_apply (c : Dev nD) (b : Fin 8) (hh : Fin 2) (t : Fin 16) (h : Fin 256) (w : Fin 512) :
    yhalf m c b hh (ix4 (0 : Fin 1) t h w) = Y m c (at4 b t hh h w) := by
  have hi := idx1 (pt b hh)
  have hb := b.isLt
  have hhh := hh.isLt
  unfold yhalf iblk
  rw [View.read_apply]
  show V m c main_arg1 _ = _
  rw [V_main_arg1]
  refine congrArg (m ((c.tc : Thread nD τ).loc main_arg1)) (funext fun a => Fin.ext ?_)
  match a with
  | ⟨0, _⟩ => show win0_1.index (pt b hh) 0 * 1 + 1 * 0 = b.val
              rw [hi.1]; show (2 * b.val + hh.val) / 2 * 1 + 1 * 0 = b.val; omega
  | ⟨1, _⟩ => show win0_1.index (pt b hh) 1 * 16 + 1 * t.val = t.val
              rw [hi.2.1]; omega
  | ⟨2, _⟩ => show win0_1.index (pt b hh) 2 * 256 + 1 * h.val = 256 * hh.val + h.val
              rw [hi.2.2.1]; show (2 * b.val + hh.val) % 2 * 256 + 1 * h.val = 256 * hh.val + h.val; omega
  | ⟨3, _⟩ => show win0_1.index (pt b hh) 3 * 512 + 1 * w.val = w.val
              rw [hi.2.2.2]; omega

/-- So a pointwise term summed over a staged half frame is its half sum over the inputs. -/
theorem half_eq (g : EReal → EReal → EReal) (c : Dev nD) (b : Fin 8) (t : Fin 16) (hh : Fin 2) :
    ∑ h : Fin 256, ∑ w : Fin 512, g (xhalf m c b hh (ix4 (0 : Fin 1) t h w)) (yhalf m c b hh (ix4 (0 : Fin 1) t h w))
      = halfSum (fun k => g (X m c k) (Y m c k)) b t hh := by
  unfold halfSum
  exact Finset.sum_congr rfl fun h _ => Finset.sum_congr rfl fun w _ =>
    congrArg₂ g (xhalf_apply m c b hh t h w) (yhalf_apply m c b hh t h w)

/-- The accumulated statistic from the two half sums. -/
theorem stat_eq (g : EReal → EReal → EReal) (c : Dev nD) (b : Fin 8) (t : Fin 16) :
    (0 + ∑ h : Fin 256, ∑ w : Fin 512, g (xhalf m c b 0 (ix4 (0 : Fin 1) t h w)) (yhalf m c b 0 (ix4 (0 : Fin 1) t h w)))
      + ∑ h : Fin 256, ∑ w : Fin 512, g (xhalf m c b 1 (ix4 (0 : Fin 1) t h w)) (yhalf m c b 1 (ix4 (0 : Fin 1) t h w))
      = stat (fun k => g (X m c k) (Y m c k)) b t := by
  unfold stat
  rw [half_eq m g c b t 0, half_eq m g c b t 1]

/-! ## The five output arrays -/

theorem arr0_apply (c : Dev nD) (i : SBT1.Idx) :
    (arr0 m c : SBT1.Idx → EReal) i = stat (fun k => bceK (X m c k) (Y m c k)) (i 0) (i 1) :=
  (blk0_apply (xhalf m c (i 0) 0) (yhalf m c (i 0) 0) (xhalf m c (i 0) 1) (yhalf m c (i 0) 1) (i 1) (i 2)).trans
    (stat_eq m bceK c (i 0) (i 1))

theorem arr1_apply (c : Dev nD) (i : SBT1.Idx) :
    (arr1 m c : SBT1.Idx → EReal) i = stat (fun k => sigK (X m c k)) (i 0) (i 1) :=
  (blk1_apply (xhalf m c (i 0) 0) (yhalf m c (i 0) 0) (xhalf m c (i 0) 1) (yhalf m c (i 0) 1) (i 1) (i 2)).trans
    (stat_eq m (fun x _ => sigK x) c (i 0) (i 1))

theorem arr2_apply (c : Dev nD) (i : SBT1.Idx) :
    (arr2 m c : SBT1.Idx → EReal) i = stat (Y m c) (i 0) (i 1) :=
  (blk2_apply (xhalf m c (i 0) 0) (yhalf m c (i 0) 0) (xhalf m c (i 0) 1) (yhalf m c (i 0) 1) (i 1) (i 2)).trans
    (stat_eq m (fun _ y => y) c (i 0) (i 1))

theorem arr3_apply (c : Dev nD) (i : SBT1.Idx) :
    (arr3 m c : SBT1.Idx → EReal) i = stat (fun k => sigK (X m c k) * Y m c k) (i 0) (i 1) :=
  (blk3_apply (xhalf m c (i 0) 0) (yhalf m c (i 0) 0) (xhalf m c (i 0) 1) (yhalf m c (i 0) 1) (i 1) (i 2)).trans
    (stat_eq m (fun x y => sigK x * y) c (i 0) (i 1))

theorem arr4_apply (c : Dev nD) (i : SBT1.Idx) :
    (arr4 m c : SBT1.Idx → EReal) i = stat (X m c) (i 0) (i 1) :=
  (blk4_apply (xhalf m c (i 0) 0) (yhalf m c (i 0) 0) (xhalf m c (i 0) 1) (yhalf m c (i 0) 1) (i 1) (i 2)).trans
    (stat_eq m (fun x _ => x) c (i 0) (i 1))

end Cert.KernelIdeal.Stats

end
-- ==== Proof.SumLaws.lean ====
/-
  The sums, regrouped.  On the extended reals addition is commutative and associative (an additive commutative
  monoid), so a sum over all the pixels of a frame may be taken in any grouping: the reference's one sum over rows and
  columns, over the flattened (frame, row, column) axis, or over every axis at once, against the kernel's two half-frame
  sums accumulated from zero.  No finiteness is needed for these.  The sigmoid identity e/(1+e) = 1/(1+1/e) is a fact
  about real numbers and is stated at a real logit.
-/
import proofs.«401697_j40973988004466_4_alg».proof.Proof.Spec
import Idealize.ShloMosaic.PureOps.Ideal.Laws
import Idealize.ShloMosaic.Lib.Pipeline.Value

noncomputable section

open Idealize.ShloMosaic Idealize.ShloMosaic.ValueIdx
open scoped BigOperators

namespace Cert.Spec

/-! ## Pointwise -/

/-- The two spellings of the cross-entropy term agree everywhere: 0 - a = -a. -/
theorem bceK_eq_bceR (x y : EReal) : bceK x y = bceR x y := by
  unfold bceK bceR eK
  rw [zero_sub]

/-- At a real logit the kernel's two-branch sigmoid is the reference's 1 / (1 + exp (-x)). -/
theorem sigK_eq_sigR (r : ℝ) : sigK (r : EReal) = sigR (r : EReal) := by
  unfold sigK sigR rK eK
  rw [zero_sub]
  by_cases h : 0 ≤ r
  · have hc : Ideal.cmp .oge (r : EReal) 0 = 1#1 := by
      have h' : (0 : EReal) ≤ (r : EReal) := by exact_mod_cast h
      simp [Ideal.cmp, h']
    have hm : max (r : EReal) (-(r : EReal)) = (r : EReal) := by
      apply max_eq_left
      rw [← EReal.coe_neg]
      exact_mod_cast (by linarith : -r ≤ r)
    rw [hc, select_one, hm]
  · have hlt : r < 0 := not_le.mp h
    have hc : Ideal.cmp .oge (r : EReal) 0 = 0#1 := by
      have h' : ¬ (0 : EReal) ≤ (r : EReal) := by exact_mod_cast h
      simp [Ideal.cmp, h']
    have hm : max (r : EReal) (-(r : EReal)) = -(r : EReal) := by
      apply max_eq_right
      rw [← EReal.coe_neg]
      exact_mod_cast (by linarith : r ≤ -r)
    rw [hc, select_zero, hm, neg_neg, ← EReal.coe_neg, Ideal.exp_coe, Ideal.exp_coe]
    have e1 : (1 : EReal) + ((Real.exp r : ℝ) : EReal) = ((1 + Real.exp r : ℝ) : EReal) := by
      rw [EReal.coe_add, EReal.coe_one]
    have e2 : (1 : EReal) + ((Real.exp (-r) : ℝ) : EReal) = ((1 + Real.exp (-r) : ℝ) : EReal) := by
      rw [EReal.coe_add, EReal.coe_one]
    have p1 : (1 + Real.exp r : ℝ) ≠ 0 := by positivity
    have p2 : (1 + Real.exp (-r) : ℝ) ≠ 0 := by positivity
    rw [e1, e2, Ideal.div_coe p1, Ideal.div_coe p2, one_mul, one_mul, ← EReal.coe_mul]
    congr 1
    rw [Real.exp_neg]
    have p3 : Real.exp r ≠ 0 := (Real.exp_pos r).ne'
    field_simp
    ring

/-! ## The reference's sums as the kernel's statistics -/

/-- The upper half's pixel (b, t, 0, h, w) is (b, t, h, w) with h among the first 256 rows. -/
private theorem at4_zero (b : Fin 8) (t : Fin 16) (h : Fin 256) (w : Fin 512) :
    at4 b t 0 h w = ix4 b t (Fin.castAdd 256 h : Fin 512) w :=
  congrArg (fun k : Fin 512 => ix4 b t k w) (Fin.ext (by simp))

/-- The lower half's pixel (b, t, 1, h, w) is (b, t, 256 + h, w). -/
private theorem at4_one (b : Fin 8) (t : Fin 16) (h : Fin 256) (w : Fin 512) :
    at4 b t 1 h w = ix4 b t (Fin.natAdd 256 h : Fin 512) w :=
  congrArg (fun k : Fin 512 => ix4 b t k w) (Fin.ext (by simp [Nat.add_comm]))

/-- The sum over the 512 rows and 512 columns of frame (b, t) is the statistic: the rows split 256 + 256. -/
private theorem frame_sum (g : SIn.Idx → EReal) (b : Fin 8) (t : Fin 16) :
    ∑ h2 : Fin 512, ∑ w : Fin 512, g (ix4 b t h2 w) = stat g b t := by
  unfold stat halfSum
  rw [zero_add]
  simp only [at4_zero, at4_one]
  exact Fin.sum_univ_add (fun h2 : Fin (256 + 256) => ∑ w : Fin 512, g (ix4 b t (h2 : Fin 512) w))

/-- An input index is its four coordinates … -/
private def idxEquiv4 : SIn.Idx ≃ Fin 8 × Fin 16 × Fin 512 × Fin 512 where
  toFun i := (i 0, i 1, i 2, i 3)
  invFun p := ix4 p.1 p.2.1 p.2.2.1 p.2.2.2
  left_inv i := (eq_ix4 i).symm
  right_inv _ := rfl

/-- … so a sum over the inputs is the fourfold sum over the coordinates. -/
private theorem sum_idx4 {M : Type*} [AddCommMonoid M] (f : SIn.Idx → M) :
    ∑ i, f i = ∑ b : Fin 8, ∑ t : Fin 16, ∑ h : Fin 512, ∑ w : Fin 512, f (ix4 b t h w) := by
  rw [← Equiv.sum_comp idxEquiv4.symm f]
  simp only [Fintype.sum_prod_type]
  rfl

/-- The sum over every axis is the sum over the frames of the per-frame statistic. -/
theorem sum_all (h' : SIn.ReducesTo [0, 1, 2, 3] S0) (g : SIn.Idx → EReal) (init : EReal) (j : S0.Idx) :
    Ideal.hostReduceAdd h' g init j = init + ∑ i : SBT.Idx, stat g (i 0) (i 1) := by
  rw [Ideal.hostReduceAdd_total h' (fun b => b.elim0) g init j, sum_idx4 g, sum_idx2]
  congr 1
  exact Finset.sum_congr rfl fun b _ => Finset.sum_congr rfl fun t _ => frame_sum g b t

/-- The pixels of frame (b, t), by row and column. -/
private def frameEmb (b : Fin 8) (t : Fin 16) : Fin 512 × Fin 512 ↪ SIn.Idx :=
  ⟨fun p => ix4 b t p.1 p.2, fun p q h => Prod.ext (congrFun h 2) (congrFun h 3)⟩

/-- The inputs that reduce over rows and columns to (b, t) are frame (b, t)'s pixels. -/
private theorem filter_frame (h' : SIn.ReducesTo [2, 3] SBT) (j : SBT.Idx) :
    Finset.univ.filter (fun i : SIn.Idx => h'.drop i = j) = Finset.univ.map (frameEmb (j 0) (j 1)) := by
  ext i
  simp only [Finset.mem_filter, Finset.mem_univ, true_and, Finset.mem_map, frameEmb, Function.Embedding.coeFn_mk]
  constructor
  · intro h
    subst h
    refine ⟨(i 2, i 3), ?_⟩
    funext a
    match a with
    | ⟨0, _⟩ => rfl
    | ⟨1, _⟩ => rfl
    | ⟨2, _⟩ => rfl
    | ⟨3, _⟩ => rfl
  · rintro ⟨p, rfl⟩
    funext a
    match a with
    | ⟨0, _⟩ => rfl
    | ⟨1, _⟩ => rfl

/-- The sum over rows and columns at frame (b, t) is that frame's statistic. -/
theorem sum_frame (h' : SIn.ReducesTo [2, 3] SBT) (g : SIn.Idx → EReal) (init : EReal) (j : SBT.Idx) :
    Ideal.hostReduceAdd h' g init j = init + stat g (j 0) (j 1) := by
  unfold Ideal.hostReduceAdd
  rw [filter_frame, Finset.sum_map, Fintype.sum_prod_type]
  exact congrArg (fun z => init + z) (frame_sum g (j 0) (j 1))

/-- The pixels of batch b, by frame, row and column. -/
private def batchEmb (b : Fin 8) : Fin 16 × Fin 512 × Fin 512 ↪ SIn.Idx :=
  ⟨fun p => ix4 b p.1 p.2.1 p.2.2, fun p q h =>
    Prod.ext (congrFun h 1) (Prod.ext (congrFun h 2) (congrFun h 3))⟩

/-- The inputs of batch b are its pixels. -/
private theorem filter_batch (b : Fin 8) :
    Finset.univ.filter (fun k : SIn.Idx => (k 0).val = b.val) = Finset.univ.map (batchEmb b) := by
  ext i
  simp only [Finset.mem_filter, Finset.mem_univ, true_and, Finset.mem_map, batchEmb, Function.Embedding.coeFn_mk]
  constructor
  · intro h
    have hb : i 0 = b := Fin.ext h
    subst hb
    refine ⟨(i 1, i 2, i 3), ?_⟩
    funext a
    match a with
    | ⟨0, _⟩ => rfl
    | ⟨1, _⟩ => rfl
    | ⟨2, _⟩ => rfl
    | ⟨3, _⟩ => rfl
  · rintro ⟨p, rfl⟩
    rfl

/-- Flattening frame, row and column keeps the batch coordinate: the row-major position is
    b * 4194304 + rest on both sides, and rest < 4194304. -/
private theorem flat_batch (hc : SIn.ShapeCasts SFlat) (i : SFlat.Idx) :
    ((Shape.reshapeEquiv hc i : SIn.Idx) 0).val = (i 0).val := by
  have hr := Shape.rowMajor_reshapeEquiv hc i
  have h4 : (SIn.rowMajor (Shape.reshapeEquiv hc i)).val
      = ((((Shape.reshapeEquiv hc i : SIn.Idx) 0).val * 16 + ((Shape.reshapeEquiv hc i : SIn.Idx) 1).val) * 512
          + ((Shape.reshapeEquiv hc i : SIn.Idx) 2).val) * 512 + ((Shape.reshapeEquiv hc i : SIn.Idx) 3).val :=
    Shape.rowMajor_val_four _
  have h2 : (SFlat.rowMajor i).val = (i 0).val * 4194304 + (i 1).val := Shape.rowMajor_val_two i
  have b1 : ((Shape.reshapeEquiv hc i : SIn.Idx) 1).val < 16 := ((Shape.reshapeEquiv hc i : SIn.Idx) 1).isLt
  have b2 : ((Shape.reshapeEquiv hc i : SIn.Idx) 2).val < 512 := ((Shape.reshapeEquiv hc i : SIn.Idx) 2).isLt
  have b3 : ((Shape.reshapeEquiv hc i : SIn.Idx) 3).val < 512 := ((Shape.reshapeEquiv hc i : SIn.Idx) 3).isLt
  have c1 : (i 1).val < 4194304 := (i 1).isLt
  omega

/-- A flattened index reduces over its second axis to j exactly when its batch coordinate is j's. -/
private theorem drop_flat_iff (h' : SFlat.ReducesTo [1] SB) (i : SFlat.Idx) (j : SB.Idx) :
    h'.drop i = j ↔ (i 0).val = (j 0).val := by
  constructor
  · intro h
    subst h
    rfl
  · intro h
    funext a
    match a with
    | ⟨0, _⟩ => exact Fin.ext h

/-- The sum over batch b's pixels is the sum over its frames of their statistics. -/
private theorem batch_sum (g : SIn.Idx → EReal) (b : Fin 8) :
    ∑ k ∈ Finset.univ.filter (fun k : SIn.Idx => (k 0).val = b.val), g k = ∑ t : Fin 16, stat g b t := by
  rw [filter_batch, Finset.sum_map]
  simp only [Fintype.sum_prod_type]
  exact Finset.sum_congr rfl fun t _ => frame_sum g b t

/-- The sum over the flattened (frame, row, column) axis at batch b is the sum over its frames of their statistics. -/
theorem sum_flat (hc : SIn.ShapeCasts SFlat) (h' : SFlat.ReducesTo [1] SB) (g : SIn.Idx → EReal) (init : EReal)
    (j : SB.Idx) :
    Ideal.hostReduceAdd h' (shapeCast SFlat g hc) init j = init + ∑ t : Fin 16, stat g (j 0) t := by
  unfold Ideal.hostReduceAdd
  refine congrArg (fun z => init + z) ?_
  have he : ∑ i ∈ Finset.univ.filter (fun i : SFlat.Idx => h'.drop i = j), shapeCast SFlat g hc i
      = ∑ k ∈ Finset.univ.filter (fun k : SIn.Idx => (k 0).val = (j 0).val), g k := by
    refine Finset.sum_equiv (Shape.reshapeEquiv hc) (fun i => ?_) (fun i _ => rfl)
    simp only [Finset.mem_filter, Finset.mem_univ, true_and]
    rw [drop_flat_iff, flat_batch]
  exact he.trans (batch_sum g (j 0))

/-! ## The kernel's statistic arrays, with their trailing unit axis dropped, summed by the host -/

/-- Dropping the trailing unit axis reads (b, t) at (b, t, 0). -/
theorem stats_cast (hc : SBT1.ShapeCasts SBT) (A : SBT1.Idx → EReal) (i : SBT.Idx) :
    shapeCast SBT A hc i = A (ix3 (i 0) (i 1) (0 : Fin 1)) := by
  apply shapeCast_apply
  have h3 : (SBT1.rowMajor (ix3 (i 0) (i 1) (0 : Fin 1))).val = ((i 0).val * 16 + (i 1).val) * 1 + 0 :=
    Shape.rowMajor_val_three _
  have h2 : (SBT.rowMajor i).val = (i 0).val * 16 + (i 1).val := Shape.rowMajor_val_two i
  rw [h3, h2]
  omega

/-- Summed over both axes. -/
theorem stats_total (hc : SBT1.ShapeCasts SBT) (h' : SBT.ReducesTo [0, 1] S0) (A : SBT1.Idx → EReal) (init : EReal)
    (j : S0.Idx) :
    Ideal.hostReduceAdd h' (shapeCast SBT A hc) init j = init + ∑ i : SBT.Idx, A (ix3 (i 0) (i 1) (0 : Fin 1)) := by
  rw [Ideal.hostReduceAdd_total h' (fun b => b.elim0)]
  congr 1
  exact Finset.sum_congr rfl fun i _ => stats_cast hc A i

/-- Summed over the frames of one batch. -/
theorem stats_batch (hc : SBT1.ShapeCasts SBT) (h' : SBT.ReducesTo [1] SB) (A : SBT1.Idx → EReal) (init : EReal)
    (j : SB.Idx) :
    Ideal.hostReduceAdd h' (shapeCast SBT A hc) init j = init + ∑ t : Fin 16, A (ix3 (j 0) t (0 : Fin 1)) := by
  have h : SBT.Reduces [1] SB := by decide
  rw [Ideal.hostReduceAdd_single h' h]
  congr 1
  refine Finset.sum_congr rfl fun t _ => ?_
  rw [stats_cast]
  rfl

end Cert.Spec

end
-- ==== Proof.RefValue.lean ====
/-
  The reference, read: its result is the loss (Tail.lean) of five host sums of pointwise functions of the two inputs,
  and each of those sums, on the extended reals, is the sum of the per-frame statistic (Spec.lean) of that pointwise
  function — the sum over every axis for the cross entropy, over the flattened (frame, row, column) axis for the three
  dice terms, over rows and columns for the logit sums.
-/
import proofs.«401697_j40973988004466_4_alg».proof.Proof.Gen.ReferenceIdeal.Run
import proofs.«401697_j40973988004466_4_alg».proof.Proof.Tail
import proofs.«401697_j40973988004466_4_alg».proof.Proof.SumLaws
import Idealize.ShloMosaic.Lib.IdealHost

noncomputable section

open Idealize.ShloMosaic Idealize.ShloMosaic.TcCoe Idealize.SL.Sem

namespace Cert.ReferenceIdeal.RefValue

open Cert.ReferenceIdeal Cert.ReferenceIdeal.Gen

variable {F : FTy → Type} [FloatOps F]

/-- The cross-entropy term at every pixel, as the reference computes it. -/
def bceVec (X Y : FVec F S8x16x512x512 .f32) : FVec F S8x16x512x512 .f32 :=
  addf (subf (maximumf X (broadcastInDim S8x16x512x512 ![] bcast_S_S8x16x512x512 (constant S_ .f32 0x00000000#32))) (mulf X Y))
    (Host.log1p (Host.exp (Host.negf (Host.absf X))))

/-- The sigmoid at every pixel, as the reference computes it. -/
def sigVec (X : FVec F S8x16x512x512 .f32) : FVec F S8x16x512x512 .f32 :=
  Host.divf (broadcastInDim S8x16x512x512 ![] bcast_S_S8x16x512x512 (constant S_ .f32 0x3F800000#32))
    (addf (broadcastInDim S8x16x512x512 ![] bcast_S_S8x16x512x512 (constant S_ .f32 0x3F800000#32)) (Host.exp (Host.negf X)))

/-- The reference's five statistics. -/
def refA (X Y : FVec F S8x16x512x512 .f32) : FVec F S_ .f32 :=
  Host.reduceAdd (bceVec X Y) (constant S_ .f32 0x00000000#32) reducesTo_S8x16x512x512_S_d0_1_2_3 h_S_
def refP (X : FVec F S8x16x512x512 .f32) : FVec F S8 .f32 :=
  Host.reduceAdd (shapeCast S8x4194304 (sigVec X) shapeCasts_S8x16x512x512_S8x4194304) (constant S_ .f32 0x00000000#32) reducesTo_S8x4194304_S8_d1 h_S_
def refT (Y : FVec F S8x16x512x512 .f32) : FVec F S8 .f32 :=
  Host.reduceAdd (shapeCast S8x4194304 Y shapeCasts_S8x16x512x512_S8x4194304) (constant S_ .f32 0x00000000#32) reducesTo_S8x4194304_S8_d1 h_S_
def refPT (X Y : FVec F S8x16x512x512 .f32) : FVec F S8 .f32 :=
  Host.reduceAdd (mulf (shapeCast S8x4194304 (sigVec X) shapeCasts_S8x16x512x512_S8x4194304) (shapeCast S8x4194304 Y shapeCasts_S8x16x512x512_S8x4194304))
    (constant S_ .f32 0x00000000#32) reducesTo_S8x4194304_S8_d1 h_S_
def refS (X : FVec F S8x16x512x512 .f32) : FVec F S8x16 .f32 :=
  Host.reduceAdd X (constant S_ .f32 0x00000000#32) reducesTo_S8x16x512x512_S8x16_d2_3 h_S_

/-- The reference's run: its result is the loss of its five statistics, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = Cert.Spec.tail (refA (m ((c.tc : Thread nD τ).loc main_arg0)) (m ((c.tc : Thread nD τ).loc main_arg1)))
            (refP (m ((c.tc : Thread nD τ).loc main_arg0))) (refT (m ((c.tc : Thread nD τ).loc main_arg1)))
            (refPT (m ((c.tc : Thread nD τ).loc main_arg0)) (m ((c.tc : Thread nD τ).loc main_arg1)))
            (refS (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  -- the program's composed term for its result is, operation for operation, the loss of the five statistics
  (θ_run defs _ _).mono (fun _ h c => ⟨(h c).1.trans rfl, (h c).2⟩) (Cert.ReferenceIdeal.Value.run (F := F) m ρ)

/-! ## At the extended reals -/

/-- At a pixel the reference's cross-entropy term is the pointwise one: the word 0x00000000 is zero, the host's
    absolute value is max x (-x), its negation, exponential and log1p the extended reals'. -/
theorem bceVec_apply (X Y : FVec Ideal S8x16x512x512 .f32) (k : S8x16x512x512.Idx) :
    bceVec X Y k = Cert.Spec.bceR (X k) (Y k) := by
  show max (X k) (Ideal.ofBits .f32 0x00000000#32) - X k * Y k + Ideal.log1p (Ideal.exp (-(max (X k) (-(X k))))) = _
  rw [Ideal.ofBits_zero_f32]
  rfl

/-- At a pixel the reference's sigmoid is the pointwise one: the word 0x3F800000 is one. -/
theorem sigVec_apply (X : FVec Ideal S8x16x512x512 .f32) (k : S8x16x512x512.Idx) :
    sigVec X k = Cert.Spec.sigR (X k) := by
  show Ideal.div (Ideal.ofBits .f32 0x3F800000#32) (Ideal.ofBits .f32 0x3F800000#32 + Ideal.exp (-(X k))) = _
  rw [Ideal.ofBits_one_f32]
  rfl

open Cert.Spec in
/-- The five statistics as sums of per-frame statistics of pointwise functions. -/
theorem refA_apply (X Y : FVec Ideal S8x16x512x512 .f32) (j : S_.Idx) :
    refA X Y j = 0 + ∑ i : SBT.Idx, stat (fun k => bceR (X k) (Y k)) (i 0) (i 1) := by
  have hv : bceVec X Y = fun k => bceR (X k) (Y k) := funext (bceVec_apply X Y)
  show Ideal.hostReduceAdd reducesTo_S8x16x512x512_S_d0_1_2_3 (bceVec X Y) (Ideal.ofBits .f32 0x00000000#32) j = _
  rw [Ideal.ofBits_zero_f32, hv]
  exact sum_all _ _ _ _

open Cert.Spec in
theorem refP_apply (X : FVec Ideal S8x16x512x512 .f32) (j : S8.Idx) :
    refP X j = 0 + ∑ t : Fin 16, stat (fun k => sigR (X k)) (j 0) t := by
  have hv : sigVec X = fun k => sigR (X k) := funext (sigVec_apply X)
  show Ideal.hostReduceAdd reducesTo_S8x4194304_S8_d1
    (shapeCast S8x4194304 (sigVec X) shapeCasts_S8x16x512x512_S8x4194304) (Ideal.ofBits .f32 0x00000000#32) j = _
  rw [Ideal.ofBits_zero_f32, hv]
  exact sum_flat _ _ _ _ _

open Cert.Spec in
theorem refT_apply (Y : FVec Ideal S8x16x512x512 .f32) (j : S8.Idx) :
    refT Y j = 0 + ∑ t : Fin 16, stat Y (j 0) t := by
  show Ideal.hostReduceAdd reducesTo_S8x4194304_S8_d1
    (shapeCast S8x4194304 Y shapeCasts_S8x16x512x512_S8x4194304) (Ideal.ofBits .f32 0x00000000#32) j = _
  rw [Ideal.ofBits_zero_f32]
  exact sum_flat _ _ _ _ _

open Cert.Spec in
theorem refPT_apply (X Y : FVec Ideal S8x16x512x512 .f32) (j : S8.Idx) :
    refPT X Y j = 0 + ∑ t : Fin 16, stat (fun k => sigR (X k) * Y k) (j 0) t := by
  -- a product of two flattened arrays is the flattened pointwise product: flattening only renames the index
  have hv : mulf (shapeCast S8x4194304 (sigVec X) shapeCasts_S8x16x512x512_S8x4194304)
        (shapeCast S8x4194304 Y shapeCasts_S8x16x512x512_S8x4194304)
      = shapeCast S8x4194304 (fun k => sigR (X k) * Y k) shapeCasts_S8x16x512x512_S8x4194304 := by
    funext i
    show sigVec X (Shape.reshapeEquiv shapeCasts_S8x16x512x512_S8x4194304 i)
        * Y (Shape.reshapeEquiv shapeCasts_S8x16x512x512_S8x4194304 i) = _
    rw [sigVec_apply]
    rfl
  show Ideal.hostReduceAdd reducesTo_S8x4194304_S8_d1
    (mulf (shapeCast S8x4194304 (sigVec X) shapeCasts_S8x16x512x512_S8x4194304)
      (shapeCast S8x4194304 Y shapeCasts_S8x16x512x512_S8x4194304)) (Ideal.ofBits .f32 0x00000000#32) j = _
  rw [Ideal.ofBits_zero_f32, hv]
  exact sum_flat _ _ _ _ _

open Cert.Spec in
theorem refS_apply (X : FVec Ideal S8x16x512x512 .f32) (j : S8x16.Idx) :
    refS X j = 0 + stat X (j 0) (j 1) := by
  show Ideal.hostReduceAdd reducesTo_S8x16x512x512_S8x16_d2_3 X (Ideal.ofBits .f32 0x00000000#32) j = _
  rw [Ideal.ofBits_zero_f32]
  exact sum_frame _ _ _ _

end Cert.ReferenceIdeal.RefValue

end
-- ==== Proof.Bridge.lean ====
/-
  The two sides meet.  With the same two inputs X (logits) and Y (targets), pixel by pixel real numbers:
    the kernel's five statistics are host sums of its output arrays, whose entry (b, t) is `stat g b t` with g the
    cross-entropy term in the kernel's spelling, the kernel's two-branch sigmoid, the target, their product, the logit;
    the reference's five statistics are host sums of the same pointwise functions in the reference's spelling, and each
    is the same sum of `stat g b t` (SumLaws.lean: sums regroup freely on the extended reals).
  The cross-entropy spellings agree everywhere; the sigmoids agree at a real logit, which is where finiteness is used.
-/
import proofs.«401697_j40973988004466_4_alg».proof.Proof.KStats
import proofs.«401697_j40973988004466_4_alg».proof.Proof.KValue
import proofs.«401697_j40973988004466_4_alg».proof.Proof.RefValue
import proofs.«401697_j40973988004466_4_alg».proof.Proof.SumLaws

set_option maxRecDepth 16384

noncomputable section

open Idealize.ShloMosaic Idealize.ShloMosaic.TcCoe Idealize.SL.Sem Idealize.ShloMosaic.ValueIdx
open scoped BigOperators

namespace Cert.Bridge

open Cert.Spec Cert.KernelIdeal.Stats Cert.ReferenceIdeal.RefValue

/-! ## The host's three readings of a kernel output array whose entries are a per-frame statistic -/

theorem kerTotal_apply (A : SBT1.Idx → EReal) (g : SIn.Idx → EReal) (hA : ∀ i, A i = stat g (i 0) (i 1)) (j : S0.Idx) :
    kerTotal (F := Ideal) A j = 0 + ∑ i : SBT.Idx, stat g (i 0) (i 1) := by
  show Ideal.hostReduceAdd _ (shapeCast SBT A _) (Ideal.ofBits .f32 0x00000000#32) j = _
  rw [Ideal.ofBits_zero_f32, stats_total]
  exact congrArg (0 + ·) (Finset.sum_congr rfl fun i _ => hA _)

theorem kerBatch_apply (A : SBT1.Idx → EReal) (g : SIn.Idx → EReal) (hA : ∀ i, A i = stat g (i 0) (i 1)) (j : SB.Idx) :
    kerBatch (F := Ideal) A j = 0 + ∑ t : Fin 16, stat g (j 0) t := by
  show Ideal.hostReduceAdd _ (shapeCast SBT A _) (Ideal.ofBits .f32 0x00000000#32) j = _
  rw [Ideal.ofBits_zero_f32, stats_batch]
  exact congrArg (0 + ·) (Finset.sum_congr rfl fun t _ => hA _)

theorem kerFrames_apply (A : SBT1.Idx → EReal) (g : SIn.Idx → EReal) (hA : ∀ i, A i = stat g (i 0) (i 1)) (j : SBT.Idx) :
    kerFrames (F := Ideal) A j = stat g (j 0) (j 1) := by
  show shapeCast SBT A _ j = _
  rw [stats_cast]
  exact hA _

/-! ## The results agree -/

/-- On the same inputs, real at every pixel of the logits, the reference's loss is the kernel's. -/
theorem result_eq (m : (ℓ : Loc Cert.KernelIdeal.nD Cert.KernelIdeal.τ Cert.KernelIdeal.sig) → Buf (Elt Ideal) ℓ)
    (c : Dev Cert.KernelIdeal.nD) (hX : ∀ k, ∃ r : ℝ, X m c k = (r : EReal)) :
    (Cert.Spec.tail (F := Ideal) (refA (F := Ideal) (X m c) (Y m c)) (refP (F := Ideal) (X m c)) (refT (F := Ideal) (Y m c))
        (refPT (F := Ideal) (X m c) (Y m c)) (refS (F := Ideal) (X m c))
        : Buf (Elt Ideal) ((c.tc : Thread Cert.KernelIdeal.nD Cert.KernelIdeal.τ).loc Cert.KernelIdeal.main_v0))
      = Cert.KernelIdeal.Stats.result m c := by
  have hsig : (fun k => sigR (X m c k)) = fun k => sigK (X m c k) := funext fun k => by
    obtain ⟨r, hr⟩ := hX k; rw [hr, sigK_eq_sigR]
  have hbce : (fun k => bceR (X m c k) (Y m c k)) = fun k => bceK (X m c k) (Y m c k) := funext fun k =>
    (bceK_eq_bceR _ _).symm
  have hpt : (fun k => sigR (X m c k) * Y m c k) = fun k => sigK (X m c k) * Y m c k := funext fun k => by
    obtain ⟨r, hr⟩ := hX k; rw [hr, sigK_eq_sigR]
  have e1 : refA (F := Ideal) (X m c) (Y m c) = kerTotal (F := Ideal) (arr0 m c) := funext fun j =>
    (refA_apply (X m c) (Y m c) j).trans
      ((congrArg (fun g : SIn.Idx → EReal => (0 : EReal) + ∑ i : SBT.Idx, stat g (i 0) (i 1)) hbce).trans
        (kerTotal_apply (arr0 m c) _ (arr0_apply m c) j).symm)
  have e2 : refP (F := Ideal) (X m c) = kerBatch (F := Ideal) (arr1 m c) := funext fun j =>
    (refP_apply (X m c) j).trans
      ((congrArg (fun g : SIn.Idx → EReal => (0 : EReal) + ∑ t : Fin 16, stat g (j 0) t) hsig).trans
        (kerBatch_apply (arr1 m c) _ (arr1_apply m c) j).symm)
  have e3 : refT (F := Ideal) (Y m c) = kerBatch (F := Ideal) (arr2 m c) := funext fun j =>
    (refT_apply (Y m c) j).trans (kerBatch_apply (arr2 m c) _ (arr2_apply m c) j).symm
  have e4 : refPT (F := Ideal) (X m c) (Y m c) = kerBatch (F := Ideal) (arr3 m c) := funext fun j =>
    (refPT_apply (X m c) (Y m c) j).trans
      ((congrArg (fun g : SIn.Idx → EReal => (0 : EReal) + ∑ t : Fin 16, stat g (j 0) t) hpt).trans
        (kerBatch_apply (arr3 m c) _ (arr3_apply m c) j).symm)
  have e5 : refS (F := Ideal) (X m c) = kerFrames (F := Ideal) (arr4 m c) := funext fun j =>
    (refS_apply (X m c) j).trans ((zero_add _).trans (kerFrames_apply (arr4 m c) _ (arr4_apply m c) j).symm)
  show Cert.Spec.tail (F := Ideal) (refA (F := Ideal) (X m c) (Y m c)) (refP (F := Ideal) (X m c)) (refT (F := Ideal) (Y m c))
      (refPT (F := Ideal) (X m c) (Y m c)) (refS (F := Ideal) (X m c))
    = Cert.Spec.tail (F := Ideal) (kerTotal (F := Ideal) (arr0 m c)) (kerBatch (F := Ideal) (arr1 m c)) (kerBatch (F := Ideal) (arr2 m c))
        (kerBatch (F := Ideal) (arr3 m c)) (kerFrames (F := Ideal) (arr4 m c))
  rw [e1, e2, e3, e4, e5]

end Cert.Bridge

end
-- ==== Proof.lean ====
/-
  The certificate of the sequential-size loss kernel against its reference.

  The kernel streams the logits x and targets y, 8 x 16 x 512 x 512, through a grid of (batch, half frame) points; at
  each point it adds into five per-frame accumulators the half frame's sums of: the stable cross-entropy term
  max x 0 - x y + log1p (exp (-|x|)), the sigmoid (one shared exp (-|x|), one reciprocal, two branches), y, sigmoid
  times y, and x; at the second half of a batch it writes the accumulators out.  The host then forms the loss from the
  five small arrays: the cross-entropy mean, one minus the mean dice ratio per batch, and the squared excess of the
  frame-to-frame change of the logit sums.  The reference computes the same five sums in one piece each and the same
  loss of them.

  The frames are the generated ones (the two kernels' in their repaired copies; the reference's is its generated run with the value dropped).  The ideal pass
  rewrote nothing, so `preserves` has nothing to state.  For `algebraic`, both results are one expression (Tail.lean) of
  five statistics, and the statistics agree on the extended reals: sums regroup freely there (SumLaws.lean), the two
  spellings of the cross-entropy term agree everywhere, and the two sigmoids agree at a real logit, which the
  precondition gives (Finite.lean).
-/
import proofs.«401697_j40973988004466_4_alg».proof.Defs
import proofs.«401697_j40973988004466_4_alg».proof.Proof.Gen.Kernel
import proofs.«401697_j40973988004466_4_alg».proof.Proof.Gen.Kernel.Skeleton
import proofs.«401697_j40973988004466_4_alg».proof.Proof.Gen.Kernel.Launch
import proofs.«401697_j40973988004466_4_alg».proof.Proof.Gen.Kernel.Points
import proofs.«401697_j40973988004466_4_alg».proof.Proof.KernelFrame
import proofs.«401697_j40973988004466_4_alg».proof.Proof.Gen.KernelIdeal
import proofs.«401697_j40973988004466_4_alg».proof.Proof.Gen.KernelIdeal.Skeleton
import proofs.«401697_j40973988004466_4_alg».proof.Proof.Gen.KernelIdeal.Launch
import proofs.«401697_j40973988004466_4_alg».proof.Proof.Gen.KernelIdeal.Points
import proofs.«401697_j40973988004466_4_alg».proof.Proof.KernelIdealFrame
import proofs.«401697_j40973988004466_4_alg».proof.Proof.Gen.ReferenceIdeal
import proofs.«401697_j40973988004466_4_alg».proof.Proof.Gen.ReferenceIdeal.Run
import proofs.«401697_j40973988004466_4_alg».proof.Proof.Gen.Pre_finite_inputs
import proofs.«401697_j40973988004466_4_alg».proof.Proof.Finite
import proofs.«401697_j40973988004466_4_alg».proof.Proof.KRun
import proofs.«401697_j40973988004466_4_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the loss of the same five statistics of inputs that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Stats.result m c, Cert.KernelIdeal.Stats.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.Bridge.result_eq m c (Cert.Pre_finite_inputs.finite_of_pre _ _ (hpre c)).1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
